-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S8192x64 .f32 .bf16
  ∧ IdealRules.truncf_extf.Statement Cert.KernelIdeal.S8192x64 .f32 .bf16
  ∧ IdealRules.truncf_extf.Statement Cert.KernelIdeal.S8192x64 .f32 .bf16
  ∧ IdealRules.truncf_extf.Statement Cert.KernelIdeal.S64x8192 .f32 .bf16
  ∧ IdealRules.truncf_extf.Statement Cert.KernelIdeal.S64x8192 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S1048576 : Shape := ⟨1, ![1048576]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_v10 : IVec S_ 1) (main_v15 : IVec S1048576 1) (main_c_5 : IVec S_ 1) : IVec S_ 1 :=
  let main_v16 : IVec S_ 1 := (fun x v => Host.reduce IntOp.andi x v reducesTo_S1048576_S_d0 h_S_) main_v15 main_c_5
  let main_v17 : IVec S_ 1 := andi main_v10 main_v16
  main_v17

def fn {F : FTy → Type} [FloatOps F] (main_arg0 : FVec F S1048576x64 .f32) (main_arg1 : IVec S1048576 32) (main_arg2 : IVec S1048576 32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_c_0 : IVec S_ 32 := constantI S_ 32 0#32
  let main_v4 : IVec S1048576 32 := broadcastInDim S1048576 ![] bcast_S_S1048576 main_c_0
  let main_v5 : IVec S1048576 1 := cmpi .sge main_arg1 main_v4
  let main_c_1 : IVec S_ 32 := constantI S_ 32 64#32
  let main_v6 : IVec S1048576 32 := broadcastInDim S1048576 ![] bcast_S_S1048576 main_c_1
  let main_v7 : IVec S1048576 1 := cmpi .slt main_arg1 main_v6
  let main_v8 : IVec S1048576 1 := andi main_v5 main_v7
  let main_c_2 : IVec S_ 1 := constantI S_ 1 1#1
  let main_v9 : IVec S_ 1 := (fun x v => Host.reduce IntOp.andi x v reducesTo_S1048576_S_d0 h_S_) main_v8 main_c_2
  let main_v10 : IVec S_ 1 := andi main_v3 main_v9
  let main_c_3 : IVec S_ 32 := constantI S_ 32 0#32
  let main_v11 : IVec S1048576 32 := broadcastInDim S1048576 ![] bcast_S_S1048576 main_c_3
  let main_v12 : IVec S1048576 1 := cmpi .sge main_arg2 main_v11
  let main_c_4 : IVec S_ 32 := constantI S_ 32 8#32
  let main_v13 : IVec S1048576 32 := broadcastInDim S1048576 ![] bcast_S_S1048576 main_c_4
  let main_v14 : IVec S1048576 1 := cmpi .slt main_arg2 main_v13
  let main_v15 : IVec S1048576 1 := andi main_v12 main_v14
  let main_c_5 : IVec S_ 1 := constantI S_ 1 1#1
  fn_part1 (F := F) main_v10 main_v15 main_c_5
-- ==== Kernel.lean ====
abbrev S1048576x64 : Shape := ⟨2, ![1048576, 64]⟩
abbrev S1048576 : Shape := ⟨1, ![1048576]⟩
abbrev S2x64x8 : Shape := ⟨3, ![2, 64, 8]⟩
abbrev S8192x64 : Shape := ⟨2, ![8192, 64]⟩
abbrev S8192 : Shape := ⟨1, ![8192]⟩
abbrev S1x64x8 : Shape := ⟨3, ![1, 64, 8]⟩
abbrev S64x8 : Shape := ⟨2, ![64, 8]⟩
abbrev S64x1 : Shape := ⟨2, ![64, 1]⟩
abbrev S8192x1 : Shape := ⟨2, ![8192, 1]⟩
abbrev S64x8192 : Shape := ⟨2, ![64, 8192]⟩
abbrev S1x8192 : Shape := ⟨2, ![1, 8192]⟩
abbrev S8x8192 : Shape := ⟨2, ![8, 8192]⟩
abbrev S_ : Shape := ⟨0, ![]⟩

abbrev nBuf : Space → Nat
  | .hbm => 22
  | .vmem => 12
  | .smem => 0
  | _ => 0

abbrev bufTy : (tb : Table) → Fin (tcTables nBuf tb) → BufTy
  | .hbm, ⟨0, _⟩ => ⟨S1048576x64, .f32⟩
  | .hbm, ⟨1, _⟩ => ⟨S1048576, .i32⟩
  | .hbm, ⟨2, _⟩ => ⟨S1048576, .i32⟩
  | .hbm, ⟨3, _⟩ => ⟨S2x64x8, .f32⟩
  | .hbm, ⟨4, _⟩ => ⟨S2x64x8, .f32⟩
  | .hbm, ⟨5, _⟩ => ⟨S_, .f32⟩
  | .hbm, ⟨6, _⟩ => ⟨S64x8, .f32⟩
  | .hbm, ⟨7, _⟩ => ⟨S_, .f32⟩
  | .hbm, ⟨8, _⟩ => ⟨S64x8, .f32⟩
  | .hbm, ⟨9, _⟩ => ⟨S_, .f32⟩
  | .hbm, ⟨10, _⟩ => ⟨S64x8, .f32⟩
  | .hbm, ⟨11, _⟩ => ⟨S64x8, .i1⟩
  | .hbm, ⟨12, _⟩ => ⟨S_, .f32⟩
  | .hbm, ⟨13, _⟩ => ⟨S64x8, .f32⟩
  | .hbm, ⟨14, _⟩ => ⟨S64x8, .f32⟩
  | .hbm, ⟨15, _⟩ => ⟨S64x8, .f32⟩
  | .hbm, ⟨16, _⟩ => ⟨S_, .f32⟩
  | .hbm, ⟨17, _⟩ => ⟨S_, .f32⟩
  | .hbm, ⟨18, _⟩ => ⟨S64x8, .f32⟩
  | .hbm, ⟨19, _⟩ => ⟨S64x8, .f32⟩
  | .hbm, ⟨20, _⟩ => ⟨S_, .f32⟩
  | .hbm, ⟨21, _⟩ => ⟨S_, .f32⟩
  | .local _ .vmem, ⟨0, _⟩ => ⟨S8192x64, .f32⟩
  | .local _ .vmem, ⟨1, _⟩ => ⟨S8192x64, .f32⟩
  | .local _ .vmem, ⟨2, _⟩ => ⟨S8192, .i32⟩
  | .local _ .vmem, ⟨3, _⟩ => ⟨S8192, .i32⟩
  | .local _ .vmem, ⟨4, _⟩ => ⟨S8192, .i32⟩
  | .local _ .vmem, ⟨5, _⟩ => ⟨S8192, .i32⟩
  | .local _ .vmem, ⟨6, _⟩ => ⟨S1x64x8, .f32⟩
  | .local _ .vmem, ⟨7, _⟩ => ⟨S1x64x8, .f32⟩
  | .local _ .vmem, ⟨8, _⟩ => ⟨S1x64x8, .f32⟩
  | .local _ .vmem, ⟨9, _⟩ => ⟨S1x64x8, .f32⟩
  | .local _ .vmem, ⟨10, _⟩ => ⟨S64x8, .f32⟩
  | .local _ .vmem, ⟨11, _⟩ => ⟨S64x8, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_cst_4 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v74 : BitVec 1 := Scalar.cmpi .eq arg1 c63_i32
  let v75 : BitVec 32 := Scalar.extui v74
  let c0_i32_20 : BitVec 32 := 0#32
  let v76 : BitVec 1 := Scalar.cmpi .ne v75 c0_i32_20
  v76

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  ![v1.toNat]

def cc0_transform_2 (i : grid0.Coords) : Fin 1 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  ![v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S8192x64_S8192x64_0_0 : ∀ a, (![0, 0] : Fin 2 → Nat) a + S8192x64.size a ≤ S8192x64.size a
  h_S8192x64 : 0 < S8192x64.numel
  inb_S8192_S8192_0 : ∀ a, (![0] : Fin 1 → Nat) a + S8192.size a ≤ S8192.size a
  h_S8192 : 0 < S8192.numel
  reduces_S8192x64_S8192 : S8192x64.Reduces [1] S8192
  shapeCasts_S8192_S8192x1 : S8192.ShapeCasts S8192x1
  broadcasts_S8192x1_S8192x64 : S8192x1.Broadcasts S8192x64
  bitsLt_bf16_f32 : FTy.bits .bf16 < FTy.bits .f32
  iota_S8192x64_d1_w32 : S8192x64.Iotas .tc 32 [1]
  natLt_1_32 : 1 < 32
  iota_S64x8192_d0_w32 : S64x8192.Iotas .tc 32 [0]
  shapeCasts_S8192_S1x8192 : S8192.ShapeCasts S1x8192
  broadcasts_S1x8192_S64x8192 : S1x8192.Broadcasts S64x8192
  iota_S8x8192_d0_w32 : S8x8192.Iotas .tc 32 [0]
  broadcasts_S1x8192_S8x8192 : S1x8192.Broadcasts S8x8192
  transposes_S8192x1_p1_0_S1x8192 : S8192x1.Transposes [1, 0] S1x8192
  inb_S1x64x8_S1x64x8_0_0_0 : ∀ a, (![0, 0, 0] : Fin 3 → Nat) a + S1x64x8.size a ≤ S1x64x8.size a
  h_S1x64x8 : 0 < S1x64x8.numel
  shapeCasts_S1x64x8_S64x8 : S1x64x8.ShapeCasts S64x8
  shapeCasts_S64x8_S1x64x8 : S64x8.ShapeCasts S1x64x8
  reducesTo_S2x64x8_S64x8_d0 : S2x64x8.ReducesTo [0] S64x8
  h_S_ : 0 < S_.numel
  bcast_S_S64x8 : S_.BroadcastsInDim S64x8 (![] : Fin 0 → Fin S64x8.rank)
  reducesTo_S64x8_S_d0_1 : S64x8.ReducesTo [0, 1] S_
  dot_S8192x64_S64x1_S8192x1_1_0_0_1_n_n_wf : DotDims.WF S8192x64 S64x1 S8192x1 [1] [0] [0] [1] [] []
  dot_S64x8192_S8x8192_S64x8_1_1_0_0_n_n_wf : DotDims.WF S64x8192 S8x8192 S64x8 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1048576x64.size a
  hwx0_0 : ∀ i : grid0.Coords, EltTy.bits .f32 = 32 ∨ (Rect.block (s := S1048576x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S1048576.size a
  hwx0_1 : ∀ i : grid0.Coords, EltTy.bits .i32 = 32 ∨ (Rect.block (s := S1048576) S8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S1048576.size a
  hwx0_2 : ∀ i : grid0.Coords, EltTy.bits .i32 = 32 ∨ (Rect.block (s := S1048576) S8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x8.size a ≤ S2x64x8.size a
  hwx0_3 : ∀ i : grid0.Coords, EltTy.bits .f32 = 32 ∨ (Rect.block (s := S2x64x8) S1x64x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x8.size a ≤ S2x64x8.size a
  hwx0_4 : ∀ i : grid0.Coords, EltTy.bits .f32 = 32 ∨ (Rect.block (s := S2x64x8) S1x64x8.size (cc0_transform_4 i) (hinb0_4 i)).WholeWords (EltTy.packing .f32)

variable [Facts₀]

def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S64x8192_S8x8192_S64x8_1_1_0_0_n_n : DotDims S64x8192 S8x8192 S64x8 where
  lhsContracting := [1]
  rhsContracting := [1]
  lhsNonContracting := [0]
  rhsNonContracting := [0]
  lhsBatch := []
  rhsBatch := []
  wf := dot_S64x8192_S8x8192_S64x8_1_1_0_0_n_n_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x64x8.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x64x8.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1048576x64 : Shape := ⟨2, ![1048576, 64]⟩
abbrev S1048576 : Shape := ⟨1, ![1048576]⟩
abbrev S_ : Shape := ⟨0, ![]⟩
abbrev S1048576x1 : Shape := ⟨2, ![1048576, 1]⟩
abbrev S1048576x1x1 : Shape := ⟨3, ![1048576, 1, 1]⟩
abbrev S1 : Shape := ⟨1, ![1]⟩
abbrev S1x1x1 : Shape := ⟨3, ![1, 1, 1]⟩
abbrev S512 : Shape := ⟨1, ![512]⟩

abbrev nBuf : Space → Nat
  | .hbm => 65
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S1048576, .i32⟩
  | .hbm, ⟨2, _⟩ => ⟨S1048576, .i32⟩
  | .hbm, ⟨3, _⟩ => ⟨S_, .f32⟩
  | .hbm, ⟨4, _⟩ => ⟨S1048576, .f32⟩
  | .hbm, ⟨5, _⟩ => ⟨S_, .f32⟩
  | .hbm, ⟨6, _⟩ => ⟨S1048576, .f32⟩
  | .hbm, ⟨7, _⟩ => ⟨S1048576, .f32⟩
  | .hbm, ⟨8, _⟩ => ⟨S1048576x1, .f32⟩
  | .hbm, ⟨9, _⟩ => ⟨S1048576x64, .f32⟩
  | .hbm, ⟨10, _⟩ => ⟨S1048576x64, .f32⟩
  | .hbm, ⟨11, _⟩ => ⟨S1048576x64, .f32⟩
  | .hbm, ⟨12, _⟩ => ⟨S_, .f32⟩
  | .hbm, ⟨13, _⟩ => ⟨S1048576, .f32⟩
  | .hbm, ⟨14, _⟩ => ⟨S1048576x1, .f32⟩
  | .hbm, ⟨15, _⟩ => ⟨S1048576x1, .f32⟩
  | .hbm, ⟨16, _⟩ => ⟨S1048576x64, .f32⟩
  | .hbm, ⟨17, _⟩ => ⟨S1048576x64, .f32⟩
  | .hbm, ⟨18, _⟩ => ⟨S1048576x1, .i32⟩
  | .hbm, ⟨19, _⟩ => ⟨S_, .i32⟩
  | .hbm, ⟨20, _⟩ => ⟨S1048576x1, .i32⟩
  | .hbm, ⟨21, _⟩ => ⟨S1048576x1, .i1⟩
  | .hbm, ⟨22, _⟩ => ⟨S_, .i32⟩
  | .hbm, ⟨23, _⟩ => ⟨S1048576x1, .i32⟩
  | .hbm, ⟨24, _⟩ => ⟨S1048576x1, .i32⟩
  | .hbm, ⟨25, _⟩ => ⟨S1048576x1, .i32⟩
  | .hbm, ⟨26, _⟩ => ⟨S1048576x1x1, .i32⟩
  | .hbm, ⟨27, _⟩ => ⟨S1, .i32⟩
  | .hbm, ⟨28, _⟩ => ⟨S_, .i32⟩
  | .hbm, ⟨29, _⟩ => ⟨S1048576x1x1, .i32⟩
  | .hbm, ⟨30, _⟩ => ⟨S1048576x1x1, .i1⟩
  | .hbm, ⟨31, _⟩ => ⟨S1x1x1, .i32⟩
  | .hbm, ⟨32, _⟩ => ⟨S1048576x1x1, .i32⟩
  | .hbm, ⟨33, _⟩ => ⟨S1048576x1x1, .i1⟩
  | .hbm, ⟨34, _⟩ => ⟨S1048576x1x1, .i1⟩
  | .hbm, ⟨35, _⟩ => ⟨S_, .i1⟩
  | .hbm, ⟨36, _⟩ => ⟨S1048576x1, .i1⟩
  | .hbm, ⟨37, _⟩ => ⟨S1048576x1, .f32⟩
  | .hbm, ⟨38, _⟩ => ⟨S_, .f32⟩
  | .hbm, ⟨39, _⟩ => ⟨S1048576x1, .f32⟩
  | .hbm, ⟨40, _⟩ => ⟨S1048576x1, .f32⟩
  | .hbm, ⟨41, _⟩ => ⟨S1048576, .f32⟩
  | .hbm, ⟨42, _⟩ => ⟨S1048576, .f32⟩
  | .hbm, ⟨43, _⟩ => ⟨S_, .i32⟩
  | .hbm, ⟨44, _⟩ => ⟨S1048576, .i32⟩
  | .hbm, ⟨45, _⟩ => ⟨S1048576, .i32⟩
  | .hbm, ⟨46, _⟩ => ⟨S1048576, .i32⟩
  | .hbm, ⟨47, _⟩ => ⟨S_, .f32⟩
  | .hbm, ⟨48, _⟩ => ⟨S1048576, .f32⟩
  | .hbm, ⟨49, _⟩ => ⟨S_, .f32⟩
  | .hbm, ⟨50, _⟩ => ⟨S512, .f32⟩
  | .hbm, ⟨51, _⟩ => ⟨S1048576x1, .i32⟩
  | .hbm, ⟨52, _⟩ => ⟨S512, .f32⟩
  | .hbm, ⟨53, _⟩ => ⟨S_, .i32⟩
  | .hbm, ⟨54, _⟩ => ⟨S1048576, .i32⟩
  | .hbm, ⟨55, _⟩ => ⟨S1048576, .i1⟩
  | .hbm, ⟨56, _⟩ => ⟨S_, .i32⟩
  | .hbm, ⟨57, _⟩ => ⟨S1048576, .i32⟩
  | .hbm, ⟨58, _⟩ => ⟨S1048576, .i32⟩
  | .hbm, ⟨59, _⟩ => ⟨S1048576, .i32⟩
  | .hbm, ⟨60, _⟩ => ⟨S1048576x1, .i32⟩
  | .hbm, ⟨61, _⟩ => ⟨S1048576, .f32⟩
  | .hbm, ⟨62, _⟩ => ⟨S1048576, .f32⟩
  | .hbm, ⟨63, _⟩ => ⟨S_, .f32⟩
  | .hbm, ⟨64, _⟩ => ⟨S_, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_c : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst : Ref sig .tc := ⟨.hbm, 47, rfl⟩
abbrev main_v8 : Ref sig .tc := ⟨.hbm, 48, rfl⟩
abbrev main_cst_0 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_c_1 : Ref sig .tc := ⟨.hbm, 53, rfl⟩
abbrev main_v12 : Ref sig .tc := ⟨.hbm, 54, rfl⟩
abbrev main_v13 : Ref sig .tc := ⟨.hbm, 55, rfl⟩
abbrev main_c_2 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_cst_3 : Ref sig .tc := ⟨.hbm, 63, rfl⟩
abbrev main_v20 : Ref sig .tc := ⟨.hbm, 64, rfl⟩

abbrev nD : Nat := 1
abbrev τ : Topo := Topo.v7x

variable {F : FTy → Type} [FloatOps F]

class Facts₀ : Prop where
  reducesTo_S1048576x64_S1048576_d1 : S1048576x64.ReducesTo [1] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x64_0_1 : S1048576x1.BroadcastsInDim S1048576x64 (![0, 1] : Fin 2 → Fin S1048576x64.rank)
  bcast_S_S1048576x1 : S_.BroadcastsInDim S1048576x1 (![] : Fin 0 → Fin S1048576x1.rank)
  shapeCasts_S1048576x1_S1048576x1x1 : S1048576x1.ShapeCasts S1048576x1x1
  bcast_S_S1048576x1x1 : S_.BroadcastsInDim S1048576x1x1 (![] : Fin 0 → Fin S1048576x1x1.rank)
  bcast_S1_S1x1x1_2 : S1.BroadcastsInDim S1x1x1 (![2] : Fin 1 → Fin S1x1x1.rank)
  bcast_S1x1x1_S1048576x1x1_0_1_2 : S1x1x1.BroadcastsInDim S1048576x1x1 (![0, 1, 2] : Fin 3 → Fin S1048576x1x1.rank)
  reducesTo_S1048576x1x1_S1048576x1_d2 : S1048576x1x1.ReducesTo [2] S1048576x1
  shapeCasts_S1048576x1_S1048576 : S1048576x1.ShapeCasts S1048576
  bcast_S_S512 : S_.BroadcastsInDim S512 (![] : Fin 0 → Fin S512.rank)
  reducesTo_S1048576_S_d0 : S1048576.ReducesTo [0] S_
  gather_S1048576x64_S1048576x1x1_S1048576x1_n_1_0_0_1_2_11_wf : GatherDims.WF S1048576x64 S1048576x1x1 S1048576x1 [] [1] [0] [1] [0] 2 ![1, 1]
  scatter_S512_S1048576x1_S1048576_n_0_0_1_wf : ScatterDims.WF S512 S1048576x1 S1048576 [] [0] [0] 1
  gather_S512_S1048576x1_S1048576_n_0_n_n_0_1_1_wf : GatherDims.WF S512 S1048576x1 S1048576 [] [0] [] [0] [] 1 ![1]

variable [Facts₀]

def gather_S1048576x64_S1048576x1x1_S1048576x1_n_1_0_0_1_2_11 : GatherDims S1048576x64 S1048576x1x1 S1048576x1 where
  offsetDims := []
  collapsedSliceDims := [1]
  operandBatchingDims := [0]
  startIndicesBatchingDims := [0]
  startIndexMap := [1]
  indexVectorDim := 2
  sliceSizes := ![1, 1]
  wf := gather_S1048576x64_S1048576x1x1_S1048576x1_n_1_0_0_1_2_11_wf
def scatter_S512_S1048576x1_S1048576_n_0_0_1 : ScatterDims S512 S1048576x1 S1048576 where
  updateWindowDims := []
  insertedWindowDims := [0]
  scatterDimsToOperandDims := [0]
  indexVectorDim := 1
  wf := scatter_S512_S1048576x1_S1048576_n_0_0_1_wf
def gather_S512_S1048576x1_S1048576_n_0_n_n_0_1_1 : GatherDims S512 S1048576x1 S1048576 where
  offsetDims := []
  collapsedSliceDims := [0]
  operandBatchingDims := []
  startIndicesBatchingDims := []
  startIndexMap := [0]
  indexVectorDim := 1
  sliceSizes := ![1]
  wf := gather_S512_S1048576x1_S1048576_n_0_n_n_0_1_1_wf

class Facts : Prop extends Facts₀ where

variable [Facts]
-- ==== Proof.KPieces.lean ====
/-
  What each kind of grid point leaves in the two accumulators and in the two output blocks, as the body's payloads.

  A shard's first tile resets both accumulators to zero and then adds the tile's contribution; every later tile adds
  its contribution to what the tile before left; the shard's last tile also copies both accumulators to the output
  blocks.
-/
import proofs.«415713_j71244917506325_3_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- Offsets that are all zero, on one, two and three axes, are the zero function: a block read or written from there
    with the buffer's own sizes is the whole buffer. -/
private theorem hz1 : (![0] : Fin 1 → Nat) = fun _ => 0 := funext fun a => by fin_cases a <;> rfl
private theorem hz2 : (![0, 0] : Fin 2 → Nat) = fun _ => 0 := funext fun a => by fin_cases a <;> rfl
private theorem hz3 : (![0, 0, 0] : Fin 3 → Nat) = fun _ => 0 := funext fun a => by fin_cases a <;> rfl

/-- First tile of a shard: the count accumulator is the tile's counts added to the reset value. The accumulator is
    written twice over its whole extent, the reset and then the update; the later write is what remains, and the value
    the update read back is the reset's. -/
theorem sout_A_0 (c : Dev nD) (i : grid0.Coords) (arg2 : Memref sig .tc .vmem S8192x64 .f32) (harg2 : arg2.IsWhole) (arg3 : Memref sig .tc .vmem S8192 .i32) (harg3 : arg3.IsWhole) (arg4 : Memref sig .tc .vmem S8192 .i32) (harg4 : arg4.IsWhole) (arg5 : Memref sig .tc .vmem S1x64x8 .f32) (harg5 : arg5.IsWhole) (arg6 : Memref sig .tc .vmem S1x64x8 .f32) (harg6 : arg6.IsWhole) (arg7 : Memref sig .tc .vmem S64x8 .f32) (harg7 : arg7.IsWhole) (arg8 : Memref sig .tc .vmem S64x8 .f32) (harg8 : arg8.IsWhole) (hc0 : cond0_0 i) (hc1 : ¬cond0_1 i)
    (x0 : Vec F S8192x64 .f32) (x1 : Vec F S8192 .i32) (x2 : Vec F S8192 .i32) :
    sout0_A_0 c i arg2 harg2 arg3 harg3 arg4 harg4 arg5 harg5 arg6 harg6 arg7 harg7 arg8 harg8 hc0 hc1 x0 x1 x2 = k0_pay2 x2 (k0_pay10 x1) (k0_pay6 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S64x8) hz2, View.readCov_unit_zero (S := S64x8) _ hz2]
  simp only [View.readAt_eq_ld, harg3.read_unread, harg4.read_unread, View.ld_unit_zero (S := S8192) hz1]

/-- First tile of a shard: the loss accumulator is the tile's summed losses added to the reset value. -/
theorem sout_A_1 (c : Dev nD) (i : grid0.Coords) (arg2 : Memref sig .tc .vmem S8192x64 .f32) (harg2 : arg2.IsWhole) (arg3 : Memref sig .tc .vmem S8192 .i32) (harg3 : arg3.IsWhole) (arg4 : Memref sig .tc .vmem S8192 .i32) (harg4 : arg4.IsWhole) (arg5 : Memref sig .tc .vmem S1x64x8 .f32) (harg5 : arg5.IsWhole) (arg6 : Memref sig .tc .vmem S1x64x8 .f32) (harg6 : arg6.IsWhole) (arg7 : Memref sig .tc .vmem S64x8 .f32) (harg7 : arg7.IsWhole) (arg8 : Memref sig .tc .vmem S64x8 .f32) (harg8 : arg8.IsWhole) (hc0 : cond0_0 i) (hc1 : ¬cond0_1 i)
    (x0 : Vec F S8192x64 .f32) (x1 : Vec F S8192 .i32) (x2 : Vec F S8192 .i32) :
    sout0_A_1 c i arg2 harg2 arg3 harg3 arg4 harg4 arg5 harg5 arg6 harg6 arg7 harg7 arg8 harg8 hc0 hc1 x0 x1 x2 = k0_pay3 x2 (k0_pay8 x0 x1) (k0_pay9 x1) (k0_pay7 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S64x8) hz2, View.readCov_unit_zero (S := S64x8) _ hz2]
  simp only [View.readAt_eq_ld, harg2.read_unread, harg3.read_unread, harg4.read_unread, View.ld_unit_zero (S := S8192) hz1, View.ld_unit_zero (S := S8192x64) hz2]

/-- A middle tile: the tile's counts added to what the tile before left. One write over the whole accumulator, whose
    value read the whole inputs and the whole accumulator as the tile before left it. -/
theorem sout_B_0 (c : Dev nD) (i : grid0.Coords) (arg2 : Memref sig .tc .vmem S8192x64 .f32) (harg2 : arg2.IsWhole) (arg3 : Memref sig .tc .vmem S8192 .i32) (harg3 : arg3.IsWhole) (arg4 : Memref sig .tc .vmem S8192 .i32) (harg4 : arg4.IsWhole) (arg5 : Memref sig .tc .vmem S1x64x8 .f32) (harg5 : arg5.IsWhole) (arg6 : Memref sig .tc .vmem S1x64x8 .f32) (harg6 : arg6.IsWhole) (arg7 : Memref sig .tc .vmem S64x8 .f32) (harg7 : arg7.IsWhole) (arg8 : Memref sig .tc .vmem S64x8 .f32) (harg8 : arg8.IsWhole) (hc0 : ¬cond0_0 i) (hc1 : ¬cond0_1 i)
    (x0 : Vec F S8192x64 .f32) (x1 : Vec F S8192 .i32) (x2 : Vec F S8192 .i32) (xs0 : Vec F S64x8 .f32) (xs1 : Vec F S64x8 .f32) :
    sout0_B_0 c i arg2 harg2 arg3 harg3 arg4 harg4 arg5 harg5 arg6 harg6 arg7 harg7 arg8 harg8 hc0 hc1 x0 x1 x2 xs0 xs1 = k0_pay2 x2 (k0_pay10 x1) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz2]
  simp only [View.readAt_eq_ld, harg3.read_unread, harg4.read_unread, harg7.read_unread, View.ld_unit_zero (S := S8192) hz1, View.ld_unit_zero (S := S64x8) hz2]

/-- A middle tile: the tile's summed losses added to what the tile before left. -/
theorem sout_B_1 (c : Dev nD) (i : grid0.Coords) (arg2 : Memref sig .tc .vmem S8192x64 .f32) (harg2 : arg2.IsWhole) (arg3 : Memref sig .tc .vmem S8192 .i32) (harg3 : arg3.IsWhole) (arg4 : Memref sig .tc .vmem S8192 .i32) (harg4 : arg4.IsWhole) (arg5 : Memref sig .tc .vmem S1x64x8 .f32) (harg5 : arg5.IsWhole) (arg6 : Memref sig .tc .vmem S1x64x8 .f32) (harg6 : arg6.IsWhole) (arg7 : Memref sig .tc .vmem S64x8 .f32) (harg7 : arg7.IsWhole) (arg8 : Memref sig .tc .vmem S64x8 .f32) (harg8 : arg8.IsWhole) (hc0 : ¬cond0_0 i) (hc1 : ¬cond0_1 i)
    (x0 : Vec F S8192x64 .f32) (x1 : Vec F S8192 .i32) (x2 : Vec F S8192 .i32) (xs0 : Vec F S64x8 .f32) (xs1 : Vec F S64x8 .f32) :
    sout0_B_1 c i arg2 harg2 arg3 harg3 arg4 harg4 arg5 harg5 arg6 harg6 arg7 harg7 arg8 harg8 hc0 hc1 x0 x1 x2 xs0 xs1 = k0_pay3 x2 (k0_pay8 x0 x1) (k0_pay9 x1) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz2]
  simp only [View.readAt_eq_ld, harg2.read_unread, harg3.read_unread, harg4.read_unread, harg8.read_unread, View.ld_unit_zero (S := S8192) hz1, View.ld_unit_zero (S := S8192x64) hz2, View.ld_unit_zero (S := S64x8) hz2]

/-- The last tile of a shard: the accumulators as at a middle tile, -/
theorem sout_C_0 (c : Dev nD) (i : grid0.Coords) (arg2 : Memref sig .tc .vmem S8192x64 .f32) (harg2 : arg2.IsWhole) (arg3 : Memref sig .tc .vmem S8192 .i32) (harg3 : arg3.IsWhole) (arg4 : Memref sig .tc .vmem S8192 .i32) (harg4 : arg4.IsWhole) (arg5 : Memref sig .tc .vmem S1x64x8 .f32) (harg5 : arg5.IsWhole) (arg6 : Memref sig .tc .vmem S1x64x8 .f32) (harg6 : arg6.IsWhole) (arg7 : Memref sig .tc .vmem S64x8 .f32) (harg7 : arg7.IsWhole) (arg8 : Memref sig .tc .vmem S64x8 .f32) (harg8 : arg8.IsWhole) (hc0 : ¬cond0_0 i) (hc1 : cond0_1 i)
    (x0 : Vec F S8192x64 .f32) (x1 : Vec F S8192 .i32) (x2 : Vec F S8192 .i32) (xs0 : Vec F S64x8 .f32) (xs1 : Vec F S64x8 .f32) :
    sout0_C_0 c i arg2 harg2 arg3 harg3 arg4 harg4 arg5 harg5 arg6 harg6 arg7 harg7 arg8 harg8 hc0 hc1 x0 x1 x2 xs0 xs1 = k0_pay2 x2 (k0_pay10 x1) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz2]
  simp only [View.readAt_eq_ld, harg3.read_unread, harg4.read_unread, harg7.read_unread, View.ld_unit_zero (S := S8192) hz1, View.ld_unit_zero (S := S64x8) hz2]

theorem sout_C_1 (c : Dev nD) (i : grid0.Coords) (arg2 : Memref sig .tc .vmem S8192x64 .f32) (harg2 : arg2.IsWhole) (arg3 : Memref sig .tc .vmem S8192 .i32) (harg3 : arg3.IsWhole) (arg4 : Memref sig .tc .vmem S8192 .i32) (harg4 : arg4.IsWhole) (arg5 : Memref sig .tc .vmem S1x64x8 .f32) (harg5 : arg5.IsWhole) (arg6 : Memref sig .tc .vmem S1x64x8 .f32) (harg6 : arg6.IsWhole) (arg7 : Memref sig .tc .vmem S64x8 .f32) (harg7 : arg7.IsWhole) (arg8 : Memref sig .tc .vmem S64x8 .f32) (harg8 : arg8.IsWhole) (hc0 : ¬cond0_0 i) (hc1 : cond0_1 i)
    (x0 : Vec F S8192x64 .f32) (x1 : Vec F S8192 .i32) (x2 : Vec F S8192 .i32) (xs0 : Vec F S64x8 .f32) (xs1 : Vec F S64x8 .f32) :
    sout0_C_1 c i arg2 harg2 arg3 harg3 arg4 harg4 arg5 harg5 arg6 harg6 arg7 harg7 arg8 harg8 hc0 hc1 x0 x1 x2 xs0 xs1 = k0_pay3 x2 (k0_pay8 x0 x1) (k0_pay9 x1) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz2]
  simp only [View.readAt_eq_ld, harg2.read_unread, harg3.read_unread, harg4.read_unread, harg8.read_unread, View.ld_unit_zero (S := S8192) hz1, View.ld_unit_zero (S := S8192x64) hz2, View.ld_unit_zero (S := S64x8) hz2]

/-- and the output blocks their copies: one write over the whole block, of the accumulator read back after its
    update. -/
theorem out_C_3 (c : Dev nD) (i : grid0.Coords) (arg2 : Memref sig .tc .vmem S8192x64 .f32) (harg2 : arg2.IsWhole) (arg3 : Memref sig .tc .vmem S8192 .i32) (harg3 : arg3.IsWhole) (arg4 : Memref sig .tc .vmem S8192 .i32) (harg4 : arg4.IsWhole) (arg5 : Memref sig .tc .vmem S1x64x8 .f32) (harg5 : arg5.IsWhole) (arg6 : Memref sig .tc .vmem S1x64x8 .f32) (harg6 : arg6.IsWhole) (arg7 : Memref sig .tc .vmem S64x8 .f32) (harg7 : arg7.IsWhole) (arg8 : Memref sig .tc .vmem S64x8 .f32) (harg8 : arg8.IsWhole) (hc0 : ¬cond0_0 i) (hc1 : cond0_1 i)
    (x0 : Vec F S8192x64 .f32) (x1 : Vec F S8192 .i32) (x2 : Vec F S8192 .i32) (xs0 : Vec F S64x8 .f32) (xs1 : Vec F S64x8 .f32) :
    out0_C_3 c i arg2 harg2 arg3 harg3 arg4 harg4 arg5 harg5 arg6 harg6 arg7 harg7 arg8 harg8 hc0 hc1 x0 x1 x2 xs0 xs1 = k0_pay4 (k0_pay2 x2 (k0_pay10 x1) xs0) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz3]
  simp only [View.readCov_unit_zero (S := S64x8) _ hz2, View.readAt_eq_ld, harg3.read_unread, harg4.read_unread, harg7.read_unread, View.ld_unit_zero (S := S8192) hz1, View.ld_unit_zero (S := S64x8) hz2]

theorem out_C_4 (c : Dev nD) (i : grid0.Coords) (arg2 : Memref sig .tc .vmem S8192x64 .f32) (harg2 : arg2.IsWhole) (arg3 : Memref sig .tc .vmem S8192 .i32) (harg3 : arg3.IsWhole) (arg4 : Memref sig .tc .vmem S8192 .i32) (harg4 : arg4.IsWhole) (arg5 : Memref sig .tc .vmem S1x64x8 .f32) (harg5 : arg5.IsWhole) (arg6 : Memref sig .tc .vmem S1x64x8 .f32) (harg6 : arg6.IsWhole) (arg7 : Memref sig .tc .vmem S64x8 .f32) (harg7 : arg7.IsWhole) (arg8 : Memref sig .tc .vmem S64x8 .f32) (harg8 : arg8.IsWhole) (hc0 : ¬cond0_0 i) (hc1 : cond0_1 i)
    (x0 : Vec F S8192x64 .f32) (x1 : Vec F S8192 .i32) (x2 : Vec F S8192 .i32) (xs0 : Vec F S64x8 .f32) (xs1 : Vec F S64x8 .f32) :
    out0_C_4 c i arg2 harg2 arg3 harg3 arg4 harg4 arg5 harg5 arg6 harg6 arg7 harg7 arg8 harg8 hc0 hc1 x0 x1 x2 xs0 xs1 = k0_pay5 (k0_pay3 x2 (k0_pay8 x0 x1) (k0_pay9 x1) xs1) := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz3]
  simp only [View.readCov_unit_zero (S := S64x8) _ hz2, View.readAt_eq_ld, harg2.read_unread, harg3.read_unread, harg4.read_unread, harg8.read_unread, View.ld_unit_zero (S := S8192) hz1, View.ld_unit_zero (S := S8192x64) hz2, View.ld_unit_zero (S := S64x8) hz2]

end Cert.KernelIdeal.Pieces

end
-- ==== Proof.Spec.lean ====
/-
  The mathematics both programs compute, over the real numbers.

  Every sample i has a row of 64 real logits, a class label in Fin 64 and a subgroup label in Fin 8. Its loss is the
  cross-entropy of the row against the label: log-sum-exp of the row minus the label's logit, the log-sum-exp taken
  after subtracting the row's largest entry. Samples fall into 64 x 8 groups by (class, subgroup).
  One program adds, over the samples, each loss divided by the size of the sample's own group; the other adds, over the
  non-empty groups, the group's summed loss divided by the group's size. The two totals are one number.
-/
import Idealize.ShloMosaic.PureOps.Ideal
import Idealize.ShloMosaic.Lib.ValueIdx

noncomputable section

open scoped BigOperators

namespace Cert.Spec

open Idealize.ShloMosaic Idealize.ShloMosaic.ValueIdx

/-- The largest entry of a row of 64 reals. -/
def rowMax (v : Fin 64 → ℝ) : ℝ := Finset.univ.sup' Finset.univ_nonempty v

/-- Cross-entropy of a row of logits against class `c`: the row's log-sum-exp, shifted by its largest entry, minus the
    class's logit. -/
def lossOf (v : Fin 64 → ℝ) (c : Fin 64) : ℝ := rowMax v + Real.log (∑ k, Real.exp (v k - rowMax v)) - v c

section Groups

variable {ι : Type} [Fintype ι] (p : ι → ℝ) (tt : ι → Fin 64) (sg : ι → Fin 8)

/-- How many samples carry class `c` and subgroup `s`. -/
def cnt (c : Fin 64) (s : Fin 8) : ℝ := ∑ i, if tt i = c ∧ sg i = s then (1 : ℝ) else 0

/-- The summed per-sample value `p` over the samples of group `(c, s)`. -/
def gsum (c : Fin 64) (s : Fin 8) : ℝ := ∑ i, if tt i = c ∧ sg i = s then p i else 0

/-- Over the non-empty groups: the group's sum divided by the group's size. -/
def groupedTotal : ℝ := ∑ c, ∑ s, if 0 < cnt tt sg c s then gsum p tt sg c s / max (cnt tt sg c s) 1 else 0

/-- Over the samples: the sample's value divided by the size of its own group. -/
def sampleTotal : ℝ := ∑ i, p i / cnt tt sg (tt i) (sg i)

/-- A sample's own group holds at least that sample. -/
theorem one_le_cnt_self (i : ι) : 1 ≤ cnt tt sg (tt i) (sg i) := by
  unfold cnt
  have h : (if tt i = tt i ∧ sg i = sg i then (1 : ℝ) else 0)
      ≤ ∑ j, if tt j = tt i ∧ sg j = sg i then (1 : ℝ) else 0 :=
    Finset.single_le_sum (f := fun j => if tt j = tt i ∧ sg j = sg i then (1 : ℝ) else 0)
      (fun j _ => by split_ifs <;> norm_num) (Finset.mem_univ i)
  simpa using h

/-- A group's size is not negative. -/
private theorem cnt_nonneg (c : Fin 64) (s : Fin 8) : 0 ≤ cnt tt sg c s := by
  unfold cnt
  exact Finset.sum_nonneg (fun i _ => by split_ifs <;> norm_num)

/-- A group of positive size holds a sample, so its size is at least one. -/
private theorem one_le_cnt_of_pos (c : Fin 64) (s : Fin 8) (h : 0 < cnt tt sg c s) : 1 ≤ cnt tt sg c s := by
  have hne : (∑ i, if tt i = c ∧ sg i = s then (1 : ℝ) else 0) ≠ 0 := ne_of_gt h
  obtain ⟨i, _, hi⟩ := Finset.exists_ne_zero_of_sum_ne_zero hne
  have hcs : tt i = c ∧ sg i = s := by
    by_contra hn
    exact hi (if_neg hn)
  have := one_le_cnt_self tt sg i
  rwa [hcs.1, hcs.2] at this

/-- One group's term of the grouped total is the sum of its own samples' quotients: inside the group the divisor is the
    group's size, a constant; an empty group contributes nothing on either side. -/
private theorem group_term (c : Fin 64) (s : Fin 8) :
    (if 0 < cnt tt sg c s then gsum p tt sg c s / max (cnt tt sg c s) 1 else 0)
      = ∑ i, if tt i = c ∧ sg i = s then p i / cnt tt sg (tt i) (sg i) else 0 := by
  have hrw : ∀ i, (if tt i = c ∧ sg i = s then p i / cnt tt sg (tt i) (sg i) else 0)
      = (if tt i = c ∧ sg i = s then p i else 0) / cnt tt sg c s := by
    intro i
    split_ifs with h
    · rw [h.1, h.2]
    · rw [zero_div]
  simp_rw [hrw]
  rw [← Finset.sum_div]
  split_ifs with hpos
  · rw [max_eq_left (one_le_cnt_of_pos tt sg c s hpos)]
    rfl
  · have h0 : cnt tt sg c s = 0 := le_antisymm (not_lt.mp hpos) (cnt_nonneg tt sg c s)
    rw [h0, div_zero]

/-- Regrouping the per-sample quotients by group: each group's quotients share the divisor, and an empty group has no
    sample. -/
theorem sampleTotal_eq_groupedTotal : sampleTotal p tt sg = groupedTotal p tt sg := by
  unfold groupedTotal sampleTotal
  simp_rw [group_term]
  symm
  calc ∑ c, ∑ s, ∑ i, (if tt i = c ∧ sg i = s then p i / cnt tt sg (tt i) (sg i) else 0)
      = ∑ c, ∑ i, ∑ s, (if tt i = c ∧ sg i = s then p i / cnt tt sg (tt i) (sg i) else 0) :=
        Finset.sum_congr rfl (fun c _ => Finset.sum_comm)
    _ = ∑ i, ∑ c, ∑ s, (if tt i = c ∧ sg i = s then p i / cnt tt sg (tt i) (sg i) else 0) :=
        Finset.sum_comm
    _ = ∑ i, p i / cnt tt sg (tt i) (sg i) := by
        refine Finset.sum_congr rfl (fun i _ => ?_)
        have inner : ∀ c, (∑ s, (if tt i = c ∧ sg i = s then p i / cnt tt sg (tt i) (sg i) else 0))
            = if tt i = c then p i / cnt tt sg (tt i) (sg i) else 0 := by
          intro c
          by_cases hc : tt i = c
          · simp [hc]
          · simp [hc]
        simp_rw [inner]
        simp

/-- The grouped total does not depend on how the samples are enumerated. -/
theorem groupedTotal_equiv {κ : Type} [Fintype κ] (e : κ ≃ ι) :
    groupedTotal (p ∘ e) (tt ∘ e) (sg ∘ e) = groupedTotal p tt sg := by
  have hc : ∀ c s, cnt (tt ∘ e) (sg ∘ e) c s = cnt tt sg c s := by
    intro c s
    unfold cnt
    exact Equiv.sum_comp e (fun i => if tt i = c ∧ sg i = s then (1 : ℝ) else 0)
  have hg : ∀ c s, gsum (p ∘ e) (tt ∘ e) (sg ∘ e) c s = gsum p tt sg c s := by
    intro c s
    unfold gsum
    exact Equiv.sum_comp e (fun i => if tt i = c ∧ sg i = s then p i else 0)
  unfold groupedTotal
  simp_rw [hc, hg]

end Groups

/-! ## The samples as the grid visits them -/

/-- Sample number of row `j` of the block at grid position `n` (position `n` holds samples `8192 n … 8192 n + 8191`; only
    `n < 128` is used). -/
def smpN (n : ℕ) (j : Fin 8192) : Fin 1048576 := ⟨(n % 128) * 8192 + j.val, by have := j.isLt; have := Nat.mod_lt n (show 0 < 128 by decide); omega⟩

/-- Shard `sh`, tile `ti`, row `j`: the sample at grid position `64 sh + ti`. -/
def smp (q : Fin 2 × Fin 64 × Fin 8192) : Fin 1048576 := smpN (q.1.val * 64 + q.2.1.val) q.2.2

/-- Every sample is one (shard, tile, row). -/
def smpEquiv : Fin 2 × Fin 64 × Fin 8192 ≃ Fin 1048576 :=
  Equiv.ofBijective smp (by
    constructor
    · rintro ⟨a, b, c⟩ ⟨a', b', c'⟩ h
      have h' := congrArg Fin.val h
      simp only [smp, smpN] at h'
      have := a.isLt; have := b.isLt; have := c.isLt
      have := a'.isLt; have := b'.isLt; have := c'.isLt
      obtain ⟨ha, hb, hc⟩ : a.val = a'.val ∧ b.val = b'.val ∧ c.val = c'.val := by omega
      exact Prod.ext (Fin.ext ha) (Prod.ext (Fin.ext hb) (Fin.ext hc))
    · intro i
      have hi := i.isLt
      refine ⟨⟨⟨i.val / 524288, by omega⟩, ⟨(i.val / 8192) % 64, by omega⟩, ⟨i.val % 8192, by omega⟩⟩, ?_⟩
      apply Fin.ext
      simp only [smp, smpN]
      omega)

theorem smpEquiv_apply (q : Fin 2 × Fin 64 × Fin 8192) : smpEquiv q = smp q := rfl

/-! ## The inputs as real data -/

/-- The three argument arrays seen as data: every logit a real number, every class label in `Fin 64`, every subgroup
    label in `Fin 8` (what the precondition grants). -/
structure Data (X : FVec Ideal ⟨2, ![1048576, 64]⟩ .f32) (Tg Sg : IVec ⟨1, ![1048576]⟩ 32) where
  xr : Fin 1048576 → Fin 64 → ℝ
  tt : Fin 1048576 → Fin 64
  sg : Fin 1048576 → Fin 8
  hx : ∀ i c, X (ix2 i c) = ((xr i c : ℝ) : EReal)
  ht : ∀ i, Tg (ix1 i) = BitVec.ofNat 32 (tt i).val
  hs : ∀ i, Sg (ix1 i) = BitVec.ofNat 32 (sg i).val

namespace Data
variable {X : FVec Ideal ⟨2, ![1048576, 64]⟩ .f32} {Tg Sg : IVec ⟨1, ![1048576]⟩ 32} (D : Data X Tg Sg)

/-- Sample `i`'s loss. -/
def loss (i : Fin 1048576) : ℝ := lossOf (D.xr i) (D.tt i)

/-- The number both programs return. -/
def total : ℝ := sampleTotal D.loss D.tt D.sg

/-- Group `(c, s)`'s count over the first `n` tiles of shard `sh`. -/
def accCnt (sh n : ℕ) (c : Fin 64) (s : Fin 8) : ℝ :=
  ∑ ti ∈ Finset.range n, ∑ j : Fin 8192,
    if D.tt (smpN (sh * 64 + ti) j) = c ∧ D.sg (smpN (sh * 64 + ti) j) = s then (1 : ℝ) else 0

/-- Group `(c, s)`'s summed loss over the first `n` tiles of shard `sh`. -/
def accSum (sh n : ℕ) (c : Fin 64) (s : Fin 8) : ℝ :=
  ∑ ti ∈ Finset.range n, ∑ j : Fin 8192,
    if D.tt (smpN (sh * 64 + ti) j) = c ∧ D.sg (smpN (sh * 64 + ti) j) = s then D.loss (smpN (sh * 64 + ti) j) else 0

/-- A sum over both shards' 64 tiles and their rows is the sum over all (shard, tile, row) triples. -/
private theorem shards_sum (g : Fin 1048576 → ℝ) :
    (∑ ti ∈ Finset.range 64, ∑ j : Fin 8192, g (smpN (0 * 64 + ti) j))
      + (∑ ti ∈ Finset.range 64, ∑ j : Fin 8192, g (smpN (1 * 64 + ti) j))
      = ∑ q : Fin 2 × Fin 64 × Fin 8192, g (smp q) := by
  rw [Fintype.sum_prod_type, Fin.sum_univ_two]
  simp_rw [Fintype.sum_prod_type]
  rw [Finset.sum_range, Finset.sum_range]
  rfl

/-- The two shards' whole-run counts add up to the group's size, the samples enumerated by (shard, tile, row). -/
theorem accCnt_total (c : Fin 64) (s : Fin 8) :
    D.accCnt 0 64 c s + D.accCnt 1 64 c s = cnt (D.tt ∘ smp) (D.sg ∘ smp) c s := by
  unfold accCnt cnt
  exact shards_sum (fun i => if D.tt i = c ∧ D.sg i = s then (1 : ℝ) else 0)

/-- The two shards' whole-run sums add up to the group's summed loss. -/
theorem accSum_total (c : Fin 64) (s : Fin 8) :
    D.accSum 0 64 c s + D.accSum 1 64 c s = gsum (D.loss ∘ smp) (D.tt ∘ smp) (D.sg ∘ smp) c s := by
  unfold accSum gsum
  exact shards_sum (fun i => if D.tt i = c ∧ D.sg i = s then D.loss i else 0)

/-- The same number as the grid accumulates it: grouped, the samples enumerated by (shard, tile, row). -/
theorem total_eq_grouped :
    D.total = groupedTotal (D.loss ∘ smp) (D.tt ∘ smp) (D.sg ∘ smp) := by
  unfold total
  rw [sampleTotal_eq_groupedTotal]
  exact (groupedTotal_equiv D.loss D.tt D.sg smpEquiv).symm

end Data

/-- A finite sum of real numbers, read in the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

end Cert.Spec

end
-- ==== Proof.LibMatmulAt.lean ====
/-
  A `tpu.matmul` into a zero accumulator, read at an output index, at the ideal instance: the plain sum of products
  over the one contracted axis, for the two rank-2 layouts a kernel uses.

  * `transposedRhs M K N` contracts the last axis of an M×K left operand with the last axis of an N×K right operand:
      out (p, q) = ∑ k, l (p, k) · r (q, k).
  * `plain M K N` contracts the last axis of an M×K left operand with the first axis of a K×N right operand:
      out (p, q) = ∑ k, l (p, k) · r (k, q).
  Both are stated for every M, K, N and every pair of operand formats, so one statement serves every tiling; a printed
  record with the same dimension numbers is one of these two by `rfl`.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {M K N : Nat}

/-! ### Last axis with last axis -/

theorem tr_lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem tr_lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

theorem tr_rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem tr_rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- `out (p, q) = ∑ k, l (p, k) · r (q, k)`. -/
theorem matmul_transposedRhs_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact tr_lhs_0 _ _
      | ⟨1, _⟩ => exact (tr_lhs_1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact tr_rhs_0 _ _
      | ⟨1, _⟩ => exact (tr_rhs_1 _ _).trans hk)
  rw [el, er]

/-! ### Last axis with first axis -/

theorem pl_lhs_0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem pl_lhs_1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem pl_rhs_0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem pl_rhs_1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- `out (p, q) = ∑ k, l (p, k) · r (k, q)`. -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact pl_lhs_0 _ _
      | ⟨1, _⟩ => exact (pl_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (pl_rhs_0 _ _).trans hk
      | ⟨1, _⟩ => exact pl_rhs_1 _ _)
  rw [el, er]

end Idealize.ShloMosaic.MatmulAt

end
-- ==== Proof.KPayLoss.lean ====
/-
  The per-sample loss inside one block of 8192 samples, as the kernel's body computes it at the ideal values.

  For row j of the block the body takes the row's largest logit M, the sum of exp (x - M) over the 64 classes (a product
  with a column of ones, plus the same product of the rounding remainder, which is x - x = 0 on finite values), its
  logarithm, and the label's logit (the row times the one-hot of the label, summed the same way); the value it keeps is
  (M + log Σ) - x_label: the cross-entropy `lossOf`.
-/
import proofs.«415713_j71244917506325_3_alg».proof.Proof.Gen.KernelIdeal.Skeleton
import proofs.«415713_j71244917506325_3_alg».proof.Proof.Spec
import proofs.«415713_j71244917506325_3_alg».proof.Proof.LibMatmulAt
import Idealize.ShloMosaic.Lib.Pipeline.Value
import Idealize.ShloMosaic.Lib.ValueLayout
import Idealize.ShloMosaic.Lib.IdealHost

noncomputable section

open scoped BigOperators

namespace Cert.KernelIdeal.Pay

open Cert.KernelIdeal Cert.KernelIdeal.Gen Cert.Spec Idealize.ShloMosaic Idealize.ShloMosaic.ValueIdx

/-! ## The row's largest entry -/

/-- The word of minus infinity denotes the bottom of the extended reals. -/
private theorem ofBits_neg_inf : Ideal.ofBits .f32 0xFF800000#32 = ⊥ := by
  simp [Ideal.ofBits, Ideal.ieee]

/-- The running maximum, started at the bottom, over a row of 64 reals is the row's largest entry. -/
private theorem fold_max_coe (v : Fin 64 → ℝ) :
    (Finset.univ : Finset (Fin 64)).fold max (⊥ : EReal) (fun k => ((v k : ℝ) : EReal)) = ((rowMax v : ℝ) : EReal) := by
  apply le_antisymm
  · refine (Finset.fold_max_le _).2 ⟨bot_le, fun k _ => ?_⟩
    exact EReal.coe_le_coe_iff.2 (Finset.le_sup' v (Finset.mem_univ k))
  · obtain ⟨i, -, hi⟩ := Finset.exists_mem_eq_sup' (Finset.univ_nonempty (α := Fin 64)) v
    unfold rowMax
    rw [hi]
    exact (Finset.le_fold_max _).2 (Or.inr ⟨i, Finset.mem_univ i, le_rfl⟩)

/-- The maximum over the class axis of a block of real logits, at row `j`. -/
private theorem rowmax_apply (xb : Fin 8192 → Fin 64 → ℝ) (x0 : FVec Ideal ⟨2, ![8192, 64]⟩ .f32)
    (hx : ∀ j c, x0 (ix2 j c) = ((xb j c : ℝ) : EReal))
    (h : Shape.Reduces ⟨2, ![8192, 64]⟩ [1] ⟨1, ![8192]⟩) (hφ : FKind.Formats .f32)
    (hacc : (0xFF800000#32 : BitVec 32) = FKind.maximumf.neutral .f32 hφ) (j : Fin 8192) :
    multiReduction .maximumf [1] ⟨1, ![8192]⟩ x0 0xFF800000#32 h hφ hacc (ix1 j) = ((rowMax (xb j) : ℝ) : EReal) := by
  rw [Ideal.multiReduction_maximumf_single]
  have e : (x0 ∘ h.lift (ix1 j)) = fun k : Fin 64 => ((xb j k : ℝ) : EReal) := by
    funext k
    show x0 (h.lift (ix1 j) k) = _
    rw [← hx j k]
    congr 1
    funext c
    apply Fin.ext
    match c with
    | ⟨0, _⟩ => rfl
    | ⟨1, _⟩ => rfl
  show (Finset.univ : Finset (Fin 64)).fold max (Ideal.ofBits .f32 0xFF800000#32) (x0 ∘ h.lift (ix1 j)) = _
  rw [e, ofBits_neg_inf]
  exact fold_max_coe (xb j)

/-! ## The keepdims column and its broadcast along the classes -/

/-- A length-8192 vector viewed as a column reads its row. -/
private theorem col_apply {α : Type} (v : (⟨1, ![8192]⟩ : Shape).Idx → α)
    (h : (⟨1, ![8192]⟩ : Shape).ShapeCasts ⟨2, ![8192, 1]⟩) (j : Fin 8192) :
    shapeCast ⟨2, ![8192, 1]⟩ v h (ix2 j (0 : Fin 1)) = v (ix1 j) := by
  refine shapeCast_apply v h _ _ ?_
  rw [Shape.rowMajor_val_two, Shape.rowMajor_val_one]
  show j.val = j.val * 1 + 0
  omega

/-- A column broadcast along 64 classes reads its row. -/
private theorem bcast_apply {α : Type} (w : (⟨2, ![8192, 1]⟩ : Shape).Idx → α)
    (h : (⟨2, ![8192, 1]⟩ : Shape).Broadcasts ⟨2, ![8192, 64]⟩) (j : Fin 8192) (c : Fin 64) :
    broadcastTo ⟨2, ![8192, 64]⟩ w h (ix2 j c) = w (ix2 j (0 : Fin 1)) := by
  refine broadcastTo_apply w h _ _ fun a => ?_
  match a with
  | ⟨0, _⟩ => rfl
  | ⟨1, _⟩ => rfl

/-! ## A product with the column of ones is the row's sum -/

/-- The product of a block with the 64 x 1 column of ones, into zero, at row `j`: the sum of the row, when the row's
    entries are real numbers. -/
private theorem ones_matmul {φ₁ : FTy} (l : FVec Ideal ⟨2, ![8192, 64]⟩ φ₁) (j : Fin 8192) (f : Fin 64 → ℝ)
    (hl : ∀ k, l (ix2 j k) = ((f k : ℝ) : EReal)) :
    FloatOps.matmul (DotDims.plain 8192 64 1) none l
        (broadcast (⟨2, ![64, 1]⟩ : Shape) (FloatOps.ofBits (F := Ideal) .bf16 0x3F80#16))
        (constant ⟨2, ![8192, 1]⟩ .f32 0x00000000#32) (ix2 j (0 : Fin 1))
      = ((∑ k, f k : ℝ) : EReal) := by
  rw [MatmulAt.matmul_plain_apply, coe_sum]
  refine Finset.sum_congr rfl fun k _ => ?_
  rw [hl k]
  show ((f k : ℝ) : EReal) * Ideal.ofBits .bf16 0x3F80#16 = _
  rw [Ideal.ofBits_one_bf16, mul_one]

/-! ## The label's one-hot row -/

/-- Class `c` against the label `t`, both below 64, as the compare-widen-convert chain reads it: one where they agree,
    zero elsewhere. -/
private theorem onehot_word (t c : Fin 64) :
    FloatOps.sitofp (F := Ideal) .f32 ((IntOp.cmpi .eq (BitVec.ofNat 32 t.val) (BitVec.ofNat 32 c.val)).setWidth 32)
      = (((if t = c then (1 : ℝ) else 0) : ℝ) : EReal) := by
  by_cases h : t = c
  · subst h
    rw [if_pos rfl]
    have e : (IntOp.cmpi .eq (BitVec.ofNat 32 t.val) (BitVec.ofNat 32 t.val)).setWidth 32 = 1#32 := by
      simp [IntOp.cmpi]
    rw [e]
    show (((1#32 : BitVec 32).toInt : ℝ) : EReal) = _
    norm_num
  · rw [if_neg h]
    have hne : BitVec.ofNat 32 t.val ≠ BitVec.ofNat 32 c.val := by
      intro hh
      have := congrArg BitVec.toNat hh
      simp only [BitVec.toNat_ofNat] at this
      have h1 := t.isLt
      have h2 := c.isLt
      exact h (Fin.ext (by omega))
    have hb : (BitVec.ofNat 32 t.val == BitVec.ofNat 32 c.val) = false := by simpa using hne
    have e : (IntOp.cmpi .eq (BitVec.ofNat 32 t.val) (BitVec.ofNat 32 c.val)).setWidth 32 = 0#32 := by
      show (BitVec.ofBool (BitVec.ofNat 32 t.val == BitVec.ofNat 32 c.val)).setWidth 32 = 0#32
      rw [hb]
      decide
    rw [e]
    show (((0#32 : BitVec 32).toInt : ℝ) : EReal) = _
    norm_num

/-! ## The last line -/

/-- The kept value from its five pieces: the largest entry, the two products under the logarithm (the second zero), the
    label's logit and its zero remainder. -/
private theorem assemble {A L1 L2 T1 T2 : EReal} {M S t : ℝ} (hA : A = (M : EReal)) (h1 : L1 = (S : EReal))
    (h2 : L2 = ((0 : ℝ) : EReal)) (h3 : T1 = (t : EReal)) (h4 : T2 = ((0 : ℝ) : EReal)) (hS : 0 < S) :
    A + Ideal.log (L1 + L2) - (T1 + T2) = ((M + Real.log S - t : ℝ) : EReal) := by
  subst hA h1 h2 h3 h4
  rw [← EReal.coe_add, ← EReal.coe_add, add_zero, add_zero, Ideal.log_coe, if_neg (not_le.2 hS), ← EReal.coe_add,
    ← EReal.coe_sub]

/-- A row against the one-hot of `t`, summed: the entry at `t`. -/
private theorem sum_onehot (v : Fin 64 → ℝ) (t : Fin 64) : (∑ k, v k * (if t = k then (1 : ℝ) else 0)) = v t := by
  simp only [mul_ite, mul_one, mul_zero, Finset.sum_ite_eq, Finset.mem_univ, if_true]

/-! ## The body's value -/

/-- The printed contraction record is the plain rows-by-columns one: the last axis of the left operand against the first
    axis of the right. -/
private theorem dot_eq : dot_S8192x64_S64x1_S8192x1_1_0_0_1_n_n = DotDims.plain 8192 64 1 := rfl

private theorem log_apply {s : Shape} {φ : FTy} (a : FVec Ideal s φ) (i : s.Idx) : log a i = Ideal.log (a i) := rfl

private theorem exp_apply {s : Shape} {φ : FTy} (a : FVec Ideal s φ) (i : s.Idx) : exp a i = Ideal.exp (a i) := rfl

/-- Row `j` of the kept column: the cross-entropy of the block's row `j` against its label. -/
theorem pay8_apply (xb : Fin 8192 → Fin 64 → ℝ) (tb : Fin 8192 → Fin 64)
    (x0 : Vec Ideal S8192x64 .f32) (x1 : Vec Ideal S8192 .i32)
    (hx : ∀ j c, x0 (ix2 j c) = ((xb j c : ℝ) : EReal)) (h1 : ∀ j, x1 (ix1 j) = BitVec.ofNat 32 (tb j).val)
    (j : Fin 8192) :
    k0_pay8 (F := Ideal) x0 x1 (ix2 j (0 : Fin 1)) = ((lossOf (xb j) (tb j) : ℝ) : EReal) := by
  -- the column of row maxima, at row j
  have hM : shapeCast S8192x1 (multiReduction (F := Ideal) .maximumf [1] S8192 x0 0xFF800000#32 reduces_S8192x64_S8192
      (.inl rfl) rfl) shapeCasts_S8192_S8192x1 (ix2 j (0 : Fin 1)) = ((rowMax (xb j) : ℝ) : EReal) := by
    rw [col_apply]
    exact rowmax_apply xb x0 hx _ _ _ j
  -- exp (x - M) at (j, k)
  have hE : ∀ k : Fin 64, exp (subf x0 (broadcastTo S8192x64 (shapeCast S8192x1 (multiReduction (F := Ideal) .maximumf [1]
      S8192 x0 0xFF800000#32 reduces_S8192x64_S8192 (.inl rfl) rfl) shapeCasts_S8192_S8192x1) broadcasts_S8192x1_S8192x64))
      (ix2 j k) = ((Real.exp (xb j k - rowMax (xb j)) : ℝ) : EReal) := by
    intro k
    rw [exp_apply, subf_apply, bcast_apply, hM, hx, ← EReal.coe_sub, Ideal.exp_coe]
  -- the label's one-hot at (j, k)
  have hO : ∀ k : Fin 64, sitofp (F := Ideal) .f32 (extui 32 (cmpi .eq (broadcastTo S8192x64 (shapeCast S8192x1 x1
      shapeCasts_S8192_S8192x1) broadcasts_S8192x1_S8192x64) (iota .tc S8192x64 32 [1] iota_S8192x64_d1_w32)) natLt_1_32)
      (ix2 j k) = (((if tb j = k then (1 : ℝ) else 0) : ℝ) : EReal) := by
    intro k
    rw [sitofp_apply, extui_apply]
    show FloatOps.sitofp .f32 ((IntOp.cmpi .eq (broadcastTo S8192x64 (shapeCast S8192x1 x1 shapeCasts_S8192_S8192x1)
      broadcasts_S8192x1_S8192x64 (ix2 j k)) (iota .tc S8192x64 32 [1] iota_S8192x64_d1_w32 (ix2 j k))).setWidth 32) = _
    rw [bcast_apply, col_apply, h1, iota_single_apply]
    exact onehot_word (tb j) k
  unfold k0_pay8
  simp only [subf_apply, addf_apply, log_apply]
  rw [dot_eq]
  unfold lossOf
  refine assemble hM ?_ ?_ ?_ ?_ ?_
  · -- the sum of the exponentials
    exact ones_matmul _ j _ (fun k => hE k)
  · -- the remainder of the exponentials is zero
    refine (ones_matmul _ j (fun _ => (0 : ℝ)) (fun k => ?_)).trans (by rw [Finset.sum_const_zero])
    rw [truncf_apply, subf_apply, hE k, ← EReal.coe_sub, sub_self]
  · -- the row against the one-hot: the label's logit
    refine (ones_matmul _ j (fun k => xb j k * (if tb j = k then (1 : ℝ) else 0)) (fun k => ?_)).trans ?_
    · rw [truncf_apply, mulf_apply, hx, hO k, ← EReal.coe_mul]
    · rw [sum_onehot]
  · -- its remainder is zero
    refine (ones_matmul _ j (fun _ => (0 : ℝ)) (fun k => ?_)).trans (by rw [Finset.sum_const_zero])
    rw [truncf_apply, subf_apply, mulf_apply, hx, hO k, ← EReal.coe_mul, ← EReal.coe_sub, sub_self]
  · exact Finset.sum_pos (fun k _ => Real.exp_pos _) Finset.univ_nonempty

end Cert.KernelIdeal.Pay

end
-- ==== Proof.KPaySteps.lean ====
/-
  What one grid point adds to the two accumulators, at the ideal values.

  The class one-hot (64 x 8192) has a one where the row index is the sample's label; the subgroup one-hot (8 x 8192)
  likewise. Their product over the 8192 samples counts, for every (class, subgroup), the block's samples of that group;
  the class one-hot scaled by the per-sample loss, times the subgroup one-hot, sums the group's losses (the second
  product, of the rounding remainder, is zero on finite values). Each is added to what the accumulator held.
-/
import proofs.«415713_j71244917506325_3_alg».proof.Proof.KPayLoss

noncomputable section

open scoped BigOperators

namespace Cert.KernelIdeal.Pay

open Cert.KernelIdeal Cert.KernelIdeal.Gen Cert.Spec Idealize.ShloMosaic Idealize.ShloMosaic.ValueIdx

/-- The word test of a one-hot: a comparison bit widened to a word and read as a number is one when the two words are
    equal and zero otherwise. -/
private theorem onehot_word (a b : BitVec 32) :
    (FloatOps.sitofp (F := Ideal) .f32 ((IntOp.cmpi .eq a b).setWidth 32) : EReal) = if b = a then 1 else 0 := by
  show ((((IntOp.cmpi .eq a b).setWidth 32).toInt : ℝ) : EReal) = _
  by_cases h : b = a
  · subst h
    rw [if_pos rfl]
    have : (IntOp.cmpi .eq b b).setWidth 32 = 1#32 := by
      simp [IntOp.cmpi]
    rw [this]
    norm_num
  · rw [if_neg h]
    have : (IntOp.cmpi .eq a b).setWidth 32 = 0#32 := by
      have hab : (a == b) = false := by
        simpa using fun e => h e.symm
      simp [IntOp.cmpi, hab]
    rw [this]
    norm_num

/-- The class one-hot at row `c`, sample `j`. -/
private theorem pay9_word (x1 : Vec Ideal S8192 .i32) (c : Fin 64) (j : Fin 8192) :
    k0_pay9 (F := Ideal) x1 (ix2 c j) = if x1 (ix1 j) = BitVec.ofNat 32 c.val then 1 else 0 := by
  unfold k0_pay9
  dsimp only
  rw [sitofp_apply, extui_apply]
  show FloatOps.sitofp (F := Ideal) .f32 ((IntOp.cmpi .eq _ _).setWidth 32) = _
  rw [onehot_word, iota_single_apply, broadcastTo_1b_ab_apply, shapeCast_a_1a_apply]

/-- The subgroup one-hot at row `s`, sample `j`. -/
private theorem pay1_word (x2 : Vec Ideal S8192 .i32) (s : Fin 8) (j : Fin 8192) :
    k0_pay1 (F := Ideal) x2 (ix2 s j) = if x2 (ix1 j) = BitVec.ofNat 32 s.val then 1 else 0 := by
  unfold k0_pay1
  dsimp only
  rw [truncf_apply, sitofp_apply, extui_apply]
  show FloatOps.sitofp (F := Ideal) .f32 ((IntOp.cmpi .eq _ _).setWidth 32) = _
  rw [onehot_word, iota_single_apply, broadcastTo_1b_ab_apply, shapeCast_a_1a_apply]

/-- Two numbers below 64 that give one 32-bit word are one number. -/
private theorem ofNat32_eq_iff {a b : ℕ} (ha : a < 64) (hb : b < 64) : BitVec.ofNat 32 a = BitVec.ofNat 32 b ↔ a = b := by
  constructor
  · intro e
    have := congrArg BitVec.toNat e
    simp only [BitVec.toNat_ofNat] at this
    omega
  · intro e; rw [e]

/-- The class one-hot over labels: one where the sample's label is the row. -/
private theorem pay9_apply (tb : Fin 8192 → Fin 64) (x1 : Vec Ideal S8192 .i32)
    (h1 : ∀ j, x1 (ix1 j) = BitVec.ofNat 32 (tb j).val) (c : Fin 64) (j : Fin 8192) :
    k0_pay9 (F := Ideal) x1 (ix2 c j) = if tb j = c then 1 else 0 := by
  rw [pay9_word, h1]
  by_cases h : tb j = c
  · rw [if_pos h, if_pos (by rw [h])]
  · rw [if_neg h, if_neg]
    intro e
    exact h (Fin.ext ((ofNat32_eq_iff (tb j).isLt c.isLt).1 e))

/-- The subgroup one-hot over labels: one where the sample's subgroup is the row. -/
private theorem pay1_apply (sb : Fin 8192 → Fin 8) (x2 : Vec Ideal S8192 .i32)
    (h2 : ∀ j, x2 (ix1 j) = BitVec.ofNat 32 (sb j).val) (s : Fin 8) (j : Fin 8192) :
    k0_pay1 (F := Ideal) x2 (ix2 s j) = if sb j = s then 1 else 0 := by
  rw [pay1_word, h2]
  by_cases h : sb j = s
  · rw [if_pos h, if_pos (by rw [h])]
  · rw [if_neg h, if_neg]
    intro e
    exact h (Fin.ext ((ofNat32_eq_iff (by have := (sb j).isLt; omega) (by have := s.isLt; omega)).1 e))

/-- The product against the subgroup one-hot, into a zero accumulator, at group `(c, s)`: the sum over the samples. -/
private theorem dot_apply (l : FVec Ideal S64x8192 .bf16) (x2 : Vec Ideal S8192 .i32) (c : Fin 64) (s : Fin 8) :
    matmul dot_S64x8192_S8x8192_S64x8_1_1_0_0_n_n none l (k0_pay1 x2) (constant S64x8 .f32 0x00000000#32) (ix2 c s)
      = ∑ k : Fin 8192, l (ix2 c k) * k0_pay1 (F := Ideal) x2 (ix2 s k) :=
  MatmulAt.matmul_transposedRhs_apply (M := 64) (K := 8192) (N := 8) none l (k0_pay1 x2) c s

/-- The count accumulator after the point: what it held plus the number of the block's samples in group `(c, s)`. -/
theorem cntStep (tb : Fin 8192 → Fin 64) (sb : Fin 8192 → Fin 8)
    (x1 x2 : Vec Ideal S8192 .i32)
    (h1 : ∀ j, x1 (ix1 j) = BitVec.ofNat 32 (tb j).val) (h2 : ∀ j, x2 (ix1 j) = BitVec.ofNat 32 (sb j).val)
    (acc : Vec Ideal S64x8 .f32) (c : Fin 64) (s : Fin 8) :
    k0_pay2 (F := Ideal) x2 (k0_pay10 x1) acc (ix2 c s)
      = acc (ix2 c s) + ((∑ j : Fin 8192, (if tb j = c ∧ sb j = s then (1 : ℝ) else 0) : ℝ) : EReal) := by
  unfold k0_pay2
  rw [shapeCast_self, addf_apply]
  rw [dot_apply]
  rw [coe_sum]
  refine congrArg (fun z => acc (ix2 c s) + z) (Finset.sum_congr rfl fun j _ => ?_)
  rw [show k0_pay10 (F := Ideal) x1 (ix2 c j) = k0_pay9 x1 (ix2 c j) from rfl, pay9_apply tb x1 h1, pay1_apply sb x2 h2]
  by_cases ht : tb j = c <;> by_cases hs : sb j = s <;> simp [ht, hs]

/-- The class one-hot scaled by the samples' losses, at row `c`, sample `j`: the loss where the label is the row. -/
private theorem scaled_apply (xb : Fin 8192 → Fin 64 → ℝ) (tb : Fin 8192 → Fin 64)
    (x0 : Vec Ideal S8192x64 .f32) (x1 : Vec Ideal S8192 .i32)
    (hx : ∀ j c, x0 (ix2 j c) = ((xb j c : ℝ) : EReal)) (h1 : ∀ j, x1 (ix1 j) = BitVec.ofNat 32 (tb j).val)
    (c : Fin 64) (j : Fin 8192) :
    mulf (k0_pay9 (F := Ideal) x1)
        (broadcastTo S64x8192 (transpose S1x8192 [1, 0] (k0_pay8 (F := Ideal) x0 x1) transposes_S8192x1_p1_0_S1x8192)
          broadcasts_S1x8192_S64x8192) (ix2 c j)
      = (((if tb j = c then lossOf (xb j) (tb j) else 0 : ℝ)) : EReal) := by
  rw [mulf_apply, broadcastTo_1b_ab_apply, transpose_ix2_apply, pay8_apply xb tb x0 x1 hx h1, pay9_apply tb x1 h1]
  by_cases h : tb j = c
  · rw [if_pos h, if_pos h, one_mul]
  · rw [if_neg h, if_neg h, zero_mul, EReal.coe_zero]

/-- The two products of the loss step, for a left operand whose row `c` is real: the product of the operand itself is
    the sum of its entries over the samples of subgroup `s`, and the product of its rounding remainder, the operand
    minus itself, is zero. -/
private theorem two_dots (sb : Fin 8192 → Fin 8) (x2 : Vec Ideal S8192 .i32)
    (h2 : ∀ j, x2 (ix1 j) = BitVec.ofNat 32 (sb j).val) (V : FVec Ideal S64x8192 .f32) (g : Fin 8192 → ℝ)
    (hb : FTy.bits .bf16 < FTy.bits .f32) (c : Fin 64) (s : Fin 8) (hV : ∀ k, V (ix2 c k) = ((g k : ℝ) : EReal)) :
    matmul dot_S64x8192_S8x8192_S64x8_1_1_0_0_n_n none (truncf .bf16 V hb) (k0_pay1 x2) (constant S64x8 .f32 0x00000000#32) (ix2 c s)
      + matmul dot_S64x8192_S8x8192_S64x8_1_1_0_0_n_n none (truncf .bf16 (subf V V) hb) (k0_pay1 x2) (constant S64x8 .f32 0x00000000#32) (ix2 c s)
      = ((∑ k : Fin 8192, (if sb k = s then g k else 0) : ℝ) : EReal) := by
  rw [dot_apply, dot_apply]
  have e2 : ∑ k : Fin 8192, (truncf .bf16 (subf V V) hb : FVec Ideal S64x8192 .bf16) (ix2 c k) * k0_pay1 (F := Ideal) x2 (ix2 s k) = 0 :=
    Finset.sum_eq_zero fun k _ => by
      rw [truncf_apply, subf_apply, hV, ← EReal.coe_sub, sub_self, EReal.coe_zero, zero_mul]
  rw [e2, add_zero, coe_sum]
  refine Finset.sum_congr rfl fun k _ => ?_
  rw [truncf_apply, hV, pay1_apply sb x2 h2]
  by_cases h : sb k = s
  · rw [if_pos h, if_pos h, mul_one]
  · rw [if_neg h, if_neg h, mul_zero, EReal.coe_zero]

/-- The loss accumulator after the point: what it held plus the summed loss of the block's samples in group `(c, s)`. -/
theorem sumStep (xb : Fin 8192 → Fin 64 → ℝ) (tb : Fin 8192 → Fin 64) (sb : Fin 8192 → Fin 8)
    (x0 : Vec Ideal S8192x64 .f32) (x1 x2 : Vec Ideal S8192 .i32)
    (hx : ∀ j c, x0 (ix2 j c) = ((xb j c : ℝ) : EReal))
    (h1 : ∀ j, x1 (ix1 j) = BitVec.ofNat 32 (tb j).val) (h2 : ∀ j, x2 (ix1 j) = BitVec.ofNat 32 (sb j).val)
    (acc : Vec Ideal S64x8 .f32) (c : Fin 64) (s : Fin 8) :
    k0_pay3 (F := Ideal) x2 (k0_pay8 x0 x1) (k0_pay9 x1) acc (ix2 c s)
      = acc (ix2 c s) + ((∑ j : Fin 8192, (if tb j = c ∧ sb j = s then lossOf (xb j) (tb j) else 0) : ℝ) : EReal) := by
  unfold k0_pay3
  rw [shapeCast_self, addf_apply, addf_apply,
    two_dots sb x2 h2 _ (fun k => if tb k = c then lossOf (xb k) (tb k) else 0) _ c s (scaled_apply xb tb x0 x1 hx h1 c)]
  refine congrArg (fun z => acc (ix2 c s) + ((z : ℝ) : EReal)) (Finset.sum_congr rfl fun k _ => ?_)
  by_cases ht : tb k = c <;> by_cases hs : sb k = s <;> simp [ht, hs]

/-- The accumulators' reset value is zero everywhere. -/
theorem pay6_apply (c : Fin 64) (s : Fin 8) : k0_pay6 (F := Ideal) (ix2 c s) = 0 := by
  unfold k0_pay6
  rw [shapeCast_self, broadcast_apply]
  exact Ideal.ofBits_zero_f32
theorem pay7_apply (c : Fin 64) (s : Fin 8) : k0_pay7 (F := Ideal) (ix2 c s) = 0 := by
  unfold k0_pay7
  rw [shapeCast_self, broadcast_apply]
  exact Ideal.ofBits_zero_f32

/-- The stored output block is the accumulator with a leading unit axis. -/
theorem pay4_apply (v : Vec Ideal S64x8 .f32) (c : Fin 64) (s : Fin 8) :
    k0_pay4 (F := Ideal) v (ix3 (0 : Fin 1) c s) = v (ix2 c s) := by
  unfold k0_pay4
  exact shapeCast_ab_1ab_apply v shapeCasts_S64x8_S1x64x8 0 c s
theorem pay5_apply (v : Vec Ideal S64x8 .f32) (c : Fin 64) (s : Fin 8) :
    k0_pay5 (F := Ideal) v (ix3 (0 : Fin 1) c s) = v (ix2 c s) := by
  unfold k0_pay5
  exact shapeCast_ab_1ab_apply v shapeCasts_S64x8_S1x64x8 0 c s

end Cert.KernelIdeal.Pay

end
-- ==== Proof.KAccum.lean ====
/-
  The accumulators point by point, at the ideal values, for inputs that are real data.

  Grid position t is tile t % 64 of shard t / 64 and holds samples 8192 t … 8192 t + 8191. After the body at position t
  the count accumulator holds, for every group, the number of the shard's samples of that group in tiles 0 … t % 64, and
  the loss accumulator their summed loss; at a shard's last tile the two output blocks hold the same.
-/
import proofs.«415713_j71244917506325_3_alg».proof.Proof.KPieces
import proofs.«415713_j71244917506325_3_alg».proof.Proof.KPaySteps

set_option maxRecDepth 16384

noncomputable section

open scoped BigOperators

namespace Cert.KernelIdeal.Accum

open Cert.KernelIdeal Cert.KernelIdeal.Gen Cert.Spec Idealize.ShloMosaic Idealize.ShloMosaic.ValueIdx Idealize.SL.Sem

variable (m : (ℓ : Loc nD τ sig) → Buf (Elt Ideal) ℓ)

/-- The argument arrays, as the region finds them on core `c`, seen as real data. -/
abbrev DataAt (c : Dev nD) : Type := Cert.Spec.Data (V m c main_arg0) (V m c main_arg1) (V m c main_arg2)

/-! ## The input blocks of a position, as rows of the data -/

/-- The block of logits at position `t`. -/
abbrev xblk (c : Dev nD) (t : Fin cfg0.N) : Vec Ideal S8192x64 .f32 := iblk m c 0 t
/-- The block of class labels at position `t`. -/
abbrev tblk (c : Dev nD) (t : Fin cfg0.N) : Vec Ideal S8192 .i32 := iblk m c 1 t
/-- The block of subgroup labels at position `t`. -/
abbrev sblk (c : Dev nD) (t : Fin cfg0.N) : Vec Ideal S8192 .i32 := iblk m c 2 t

/-- The three windows' block index at position `t` is `t` itself (64 · shard + tile), the logits' column block 0. -/
theorem idx_facts : ∀ t : Fin cfg0.N,
    win0_0.index t (0 : Fin 2) = t.val ∧ win0_0.index t (1 : Fin 2) = 0
      ∧ win0_1.index t (0 : Fin 1) = t.val ∧ win0_2.index t (0 : Fin 1) = t.val :=
  (by decide +kernel : ∀ t : Fin grid0.N,
    win0_0.index t (0 : Fin 2) = t.val ∧ win0_0.index t (1 : Fin 2) = 0
      ∧ win0_1.index t (0 : Fin 1) = t.val ∧ win0_2.index t (0 : Fin 1) = t.val)

theorem smpN_val (t : Fin cfg0.N) (j : Fin 8192) : (smpN t.val j).val = t.val * 8192 + j.val := by
  have hN : t.val < 128 := lt_of_lt_of_eq t.isLt (show cfg0.N = 128 from N_0)
  show (t.val % 128) * 8192 + j.val = _
  rw [Nat.mod_eq_of_lt hN]

/-- Row `j` of the logits block at position `t` is sample `8192 t + j`'s row. -/
theorem xblk_apply (c : Dev nD) (D : DataAt m c) (t : Fin cfg0.N) (j : Fin 8192) (k : Fin 64) :
    xblk m c t (ix2 j k) = ((D.xr (smpN t.val j) k : ℝ) : EReal) := by
  rw [← D.hx (smpN t.val j) k]
  unfold xblk iblk
  rw [View.read_apply]
  show V m c main_arg0 _ = V m c main_arg0 _
  congr 1
  funext a
  apply Fin.ext
  match a with
  | ⟨0, _⟩ => show win0_0.index t 0 * 8192 + 1 * j.val = (smpN t.val j).val; rw [(idx_facts t).1, smpN_val]; omega
  | ⟨1, _⟩ => show win0_0.index t 1 * 64 + 1 * k.val = k.val; rw [(idx_facts t).2.1]; omega

/-- Entry `j` of the class-label block at position `t` is sample `8192 t + j`'s label. -/
theorem tblk_apply (c : Dev nD) (D : DataAt m c) (t : Fin cfg0.N) (j : Fin 8192) :
    tblk m c t (ix1 j) = BitVec.ofNat 32 (D.tt (smpN t.val j)).val := by
  rw [← D.ht (smpN t.val j)]
  unfold tblk iblk
  rw [View.read_apply]
  show V m c main_arg1 _ = V m c main_arg1 _
  congr 1
  funext a
  apply Fin.ext
  match a with
  | ⟨0, _⟩ => show win0_1.index t 0 * 8192 + 1 * j.val = (smpN t.val j).val; rw [(idx_facts t).2.2.1, smpN_val]; omega

/-- Entry `j` of the subgroup-label block at position `t` is sample `8192 t + j`'s subgroup. -/
theorem sblk_apply (c : Dev nD) (D : DataAt m c) (t : Fin cfg0.N) (j : Fin 8192) :
    sblk m c t (ix1 j) = BitVec.ofNat 32 (D.sg (smpN t.val j)).val := by
  rw [← D.hs (smpN t.val j)]
  unfold sblk iblk
  rw [View.read_apply]
  show V m c main_arg2 _ = V m c main_arg2 _
  congr 1
  funext a
  apply Fin.ext
  match a with
  | ⟨0, _⟩ => show win0_2.index t 0 * 8192 + 1 * j.val = (smpN t.val j).val; rw [(idx_facts t).2.2.2, smpN_val]; omega

/-! ## What a position leaves, as the body's arithmetic on its blocks -/

/-- A shard's first tile leaves in the count accumulator the tile's counts over the reset value. -/
theorem cnt_first (c : Dev nD) (t : Fin cfg0.N) (h0 : t.val % 64 = 0) :
    (outsAt0 m c t.val t.isLt).2.2.1 = k0_pay2 (sblk m c t) (k0_pay10 (tblk m c t)) (k0_pay6 (F := Ideal)) := by
  have h1 : ¬t.val % 64 = 63 := by omega
  rw [outsAt0_A m c t h0 h1]
  dsimp only
  exact Pieces.sout_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (xblk m c t) (tblk m c t) (sblk m c t)

/-- A shard's first tile leaves in the loss accumulator the tile's summed losses over the reset value. -/
theorem sum_first (c : Dev nD) (t : Fin cfg0.N) (h0 : t.val % 64 = 0) :
    (outsAt0 m c t.val t.isLt).2.2.2
      = k0_pay3 (sblk m c t) (k0_pay8 (xblk m c t) (tblk m c t)) (k0_pay9 (tblk m c t)) (k0_pay7 (F := Ideal)) := by
  have h1 : ¬t.val % 64 = 63 := by omega
  rw [outsAt0_A m c t h0 h1]
  dsimp only
  exact Pieces.sout_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (xblk m c t) (tblk m c t) (sblk m c t)

/-- A later tile leaves in the count accumulator the tile's counts over what the position before left. -/
theorem cnt_later (c : Dev nD) (t : Fin cfg0.N) (h0 : ¬t.val % 64 = 0) :
    (outsAt0 m c t.val t.isLt).2.2.1
      = k0_pay2 (sblk m c t) (k0_pay10 (tblk m c t)) (outsAt0 m c (t.val - 1) (Nat.lt_of_le_of_lt (Nat.sub_le _ _) t.isLt)).2.2.1 := by
  by_cases h1 : t.val % 64 = 63
  · rw [outsAt0_C m c t h0 h1]
    dsimp only
    exact Pieces.sout_C_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (xblk m c t) (tblk m c t) (sblk m c t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]
    dsimp only
    exact Pieces.sout_B_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (xblk m c t) (tblk m c t) (sblk m c t) (outsAt0 m c (t.val - 1) (Nat.lt_of_le_of_lt (Nat.sub_le _ _) t.isLt)).2.2.1 (outsAt0 m c (t.val - 1) (Nat.lt_of_le_of_lt (Nat.sub_le _ _) t.isLt)).2.2.2

/-- A later tile leaves in the loss accumulator the tile's summed losses over what the position before left. -/
theorem sum_later (c : Dev nD) (t : Fin cfg0.N) (h0 : ¬t.val % 64 = 0) :
    (outsAt0 m c t.val t.isLt).2.2.2
      = k0_pay3 (sblk m c t) (k0_pay8 (xblk m c t) (tblk m c t)) (k0_pay9 (tblk m c t)) (outsAt0 m c (t.val - 1) (Nat.lt_of_le_of_lt (Nat.sub_le _ _) t.isLt)).2.2.2 := by
  by_cases h1 : t.val % 64 = 63
  · rw [outsAt0_C m c t h0 h1]
    dsimp only
    exact Pieces.sout_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (xblk m c t) (tblk m c t) (sblk m c t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]
    dsimp only
    exact Pieces.sout_B_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (xblk m c t) (tblk m c t) (sblk m c t) (outsAt0 m c (t.val - 1) (Nat.lt_of_le_of_lt (Nat.sub_le _ _) t.isLt)).2.2.1 (outsAt0 m c (t.val - 1) (Nat.lt_of_le_of_lt (Nat.sub_le _ _) t.isLt)).2.2.2

/-- A shard's last tile copies the new count accumulator to its output block. -/
theorem out3_last (c : Dev nD) (t : Fin cfg0.N) (h1 : t.val % 64 = 63) :
    (outsAt0 m c t.val t.isLt).1
      = k0_pay4 (k0_pay2 (sblk m c t) (k0_pay10 (tblk m c t)) (outsAt0 m c (t.val - 1) (Nat.lt_of_le_of_lt (Nat.sub_le _ _) t.isLt)).2.2.1) := by
  have h0 : ¬t.val % 64 = 0 := by omega
  rw [outsAt0_C m c t h0 h1]
  dsimp only
  exact Pieces.out_C_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (xblk m c t) (tblk m c t) (sblk m c t) (outsAt0 m c (t.val - 1) (Nat.lt_of_le_of_lt (Nat.sub_le _ _) t.isLt)).2.2.1 (outsAt0 m c (t.val - 1) (Nat.lt_of_le_of_lt (Nat.sub_le _ _) t.isLt)).2.2.2

/-- A shard's last tile copies the new loss accumulator to its output block. -/
theorem out4_last (c : Dev nD) (t : Fin cfg0.N) (h1 : t.val % 64 = 63) :
    (outsAt0 m c t.val t.isLt).2.1
      = k0_pay5 (k0_pay3 (sblk m c t) (k0_pay8 (xblk m c t) (tblk m c t)) (k0_pay9 (tblk m c t)) (outsAt0 m c (t.val - 1) (Nat.lt_of_le_of_lt (Nat.sub_le _ _) t.isLt)).2.2.2) := by
  have h0 : ¬t.val % 64 = 0 := by omega
  rw [outsAt0_C m c t h0 h1]
  dsimp only
  exact Pieces.out_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (xblk m c t) (tblk m c t) (sblk m c t) (outsAt0 m c (t.val - 1) (Nat.lt_of_le_of_lt (Nat.sub_le _ _) t.isLt)).2.2.1 (outsAt0 m c (t.val - 1) (Nat.lt_of_le_of_lt (Nat.sub_le _ _) t.isLt)).2.2.2

/-! ## One position's contribution, and the running totals of a shard -/

section Totals

variable {X : FVec Ideal ⟨2, ![1048576, 64]⟩ .f32} {Tg Sg : IVec ⟨1, ![1048576]⟩ 32} (D : Cert.Spec.Data X Tg Sg)

/-- The number of position `p`'s samples in group `(c', s')`. -/
def tileCnt (p : ℕ) (c' : Fin 64) (s' : Fin 8) : ℝ :=
  ∑ j : Fin 8192, if D.tt (smpN p j) = c' ∧ D.sg (smpN p j) = s' then (1 : ℝ) else 0

/-- The summed loss of position `p`'s samples in group `(c', s')`. -/
def tileSum (p : ℕ) (c' : Fin 64) (s' : Fin 8) : ℝ :=
  ∑ j : Fin 8192, if D.tt (smpN p j) = c' ∧ D.sg (smpN p j) = s' then D.loss (smpN p j) else 0

/-- After a shard's first tile the running count is that tile's. -/
theorem accCnt_first (n : ℕ) (h0 : n % 64 = 0) (c' : Fin 64) (s' : Fin 8) :
    D.accCnt (n / 64) (n % 64 + 1) c' s' = tileCnt D n c' s' := by
  have e : n / 64 * 64 + 0 = n := by omega
  rw [h0]
  unfold Data.accCnt tileCnt
  rw [Finset.sum_range_succ, Finset.sum_range_zero, zero_add, e]

/-- After a later tile the running count is the one before plus that tile's. -/
theorem accCnt_later (n : ℕ) (h0 : ¬n % 64 = 0) (c' : Fin 64) (s' : Fin 8) :
    D.accCnt (n / 64) (n % 64 + 1) c' s'
      = D.accCnt ((n - 1) / 64) ((n - 1) % 64 + 1) c' s' + tileCnt D n c' s' := by
  have e1 : (n - 1) / 64 = n / 64 := by omega
  have e2 : (n - 1) % 64 + 1 = n % 64 := by omega
  have e : n / 64 * 64 + n % 64 = n := by omega
  rw [e1, e2]
  unfold Data.accCnt tileCnt
  rw [Finset.sum_range_succ, e]

/-- After a shard's first tile the running loss sum is that tile's. -/
theorem accSum_first (n : ℕ) (h0 : n % 64 = 0) (c' : Fin 64) (s' : Fin 8) :
    D.accSum (n / 64) (n % 64 + 1) c' s' = tileSum D n c' s' := by
  have e : n / 64 * 64 + 0 = n := by omega
  rw [h0]
  unfold Data.accSum tileSum
  rw [Finset.sum_range_succ, Finset.sum_range_zero, zero_add, e]

/-- After a later tile the running loss sum is the one before plus that tile's. -/
theorem accSum_later (n : ℕ) (h0 : ¬n % 64 = 0) (c' : Fin 64) (s' : Fin 8) :
    D.accSum (n / 64) (n % 64 + 1) c' s'
      = D.accSum ((n - 1) / 64) ((n - 1) % 64 + 1) c' s' + tileSum D n c' s' := by
  have e1 : (n - 1) / 64 = n / 64 := by omega
  have e2 : (n - 1) % 64 + 1 = n % 64 := by omega
  have e : n / 64 * 64 + n % 64 = n := by omega
  rw [e1, e2]
  unfold Data.accSum tileSum
  rw [Finset.sum_range_succ, e]

end Totals

/-- The body's count update at position `t`: what the accumulator held plus the position's count. -/
theorem cnt_step_val (c : Dev nD) (D : DataAt m c) (t : Fin cfg0.N) (acc : Vec Ideal S64x8 .f32) (c' : Fin 64) (s' : Fin 8) :
    k0_pay2 (F := Ideal) (sblk m c t) (k0_pay10 (tblk m c t)) acc (ix2 c' s')
      = acc (ix2 c' s') + ((tileCnt D t.val c' s' : ℝ) : EReal) :=
  Pay.cntStep (fun j => D.tt (smpN t.val j)) (fun j => D.sg (smpN t.val j)) (tblk m c t) (sblk m c t)
    (tblk_apply m c D t) (sblk_apply m c D t) acc c' s'

/-- The body's loss update at position `t`: what the accumulator held plus the position's summed loss. -/
theorem sum_step_val (c : Dev nD) (D : DataAt m c) (t : Fin cfg0.N) (acc : Vec Ideal S64x8 .f32) (c' : Fin 64) (s' : Fin 8) :
    k0_pay3 (F := Ideal) (sblk m c t) (k0_pay8 (xblk m c t) (tblk m c t)) (k0_pay9 (tblk m c t)) acc (ix2 c' s')
      = acc (ix2 c' s') + ((tileSum D t.val c' s' : ℝ) : EReal) :=
  Pay.sumStep (fun j => D.xr (smpN t.val j)) (fun j => D.tt (smpN t.val j)) (fun j => D.sg (smpN t.val j))
    (xblk m c t) (tblk m c t) (sblk m c t)
    (xblk_apply m c D t) (tblk_apply m c D t) (sblk_apply m c D t) acc c' s'

/-! ## The accumulators after every position -/

/-- The count accumulator after position `n` holds the shard's running count. -/
theorem cnt_inv (c : Dev nD) (D : DataAt m c) (c' : Fin 64) (s' : Fin 8) : ∀ (n : ℕ) (hn : n < cfg0.N),
    (outsAt0 m c n hn).2.2.1 (ix2 c' s') = ((D.accCnt (n / 64) (n % 64 + 1) c' s' : ℝ) : EReal) := by
  intro n
  induction n using Nat.strong_induction_on with
  | _ n ih =>
    intro hn
    by_cases h0 : n % 64 = 0
    · have e : (outsAt0 m c n hn).2.2.1 (ix2 c' s')
          = k0_pay2 (F := Ideal) (sblk m c ⟨n, hn⟩) (k0_pay10 (tblk m c ⟨n, hn⟩)) (k0_pay6 (F := Ideal)) (ix2 c' s') :=
        congrFun (cnt_first m c ⟨n, hn⟩ h0) (ix2 c' s')
      have e' : k0_pay2 (F := Ideal) (sblk m c ⟨n, hn⟩) (k0_pay10 (tblk m c ⟨n, hn⟩)) (k0_pay6 (F := Ideal)) (ix2 c' s')
          = k0_pay6 (F := Ideal) (ix2 c' s') + ((tileCnt D n c' s' : ℝ) : EReal) :=
        cnt_step_val m c D ⟨n, hn⟩ (k0_pay6 (F := Ideal)) c' s'
      rw [e, e', Pay.pay6_apply, zero_add, accCnt_first D n h0]
    · have hp : n - 1 < cfg0.N := Nat.lt_of_le_of_lt (Nat.sub_le _ _) hn
      have e : (outsAt0 m c n hn).2.2.1 (ix2 c' s')
          = k0_pay2 (F := Ideal) (sblk m c ⟨n, hn⟩) (k0_pay10 (tblk m c ⟨n, hn⟩)) (outsAt0 m c (n - 1) hp).2.2.1 (ix2 c' s') :=
        congrFun (cnt_later m c ⟨n, hn⟩ h0) (ix2 c' s')
      have e' : k0_pay2 (F := Ideal) (sblk m c ⟨n, hn⟩) (k0_pay10 (tblk m c ⟨n, hn⟩)) (outsAt0 m c (n - 1) hp).2.2.1 (ix2 c' s')
          = (outsAt0 m c (n - 1) hp).2.2.1 (ix2 c' s') + ((tileCnt D n c' s' : ℝ) : EReal) :=
        cnt_step_val m c D ⟨n, hn⟩ (outsAt0 m c (n - 1) hp).2.2.1 c' s'
      rw [e, e', ih (n - 1) (by omega) hp, ← EReal.coe_add, accCnt_later D n h0]

/-- The loss accumulator after position `n` holds the shard's running loss sum. -/
theorem sum_inv (c : Dev nD) (D : DataAt m c) (c' : Fin 64) (s' : Fin 8) : ∀ (n : ℕ) (hn : n < cfg0.N),
    (outsAt0 m c n hn).2.2.2 (ix2 c' s') = ((D.accSum (n / 64) (n % 64 + 1) c' s' : ℝ) : EReal) := by
  intro n
  induction n using Nat.strong_induction_on with
  | _ n ih =>
    intro hn
    by_cases h0 : n % 64 = 0
    · have e : (outsAt0 m c n hn).2.2.2 (ix2 c' s')
          = k0_pay3 (F := Ideal) (sblk m c ⟨n, hn⟩) (k0_pay8 (xblk m c ⟨n, hn⟩) (tblk m c ⟨n, hn⟩)) (k0_pay9 (tblk m c ⟨n, hn⟩)) (k0_pay7 (F := Ideal)) (ix2 c' s') :=
        congrFun (sum_first m c ⟨n, hn⟩ h0) (ix2 c' s')
      have e' : k0_pay3 (F := Ideal) (sblk m c ⟨n, hn⟩) (k0_pay8 (xblk m c ⟨n, hn⟩) (tblk m c ⟨n, hn⟩)) (k0_pay9 (tblk m c ⟨n, hn⟩)) (k0_pay7 (F := Ideal)) (ix2 c' s')
          = k0_pay7 (F := Ideal) (ix2 c' s') + ((tileSum D n c' s' : ℝ) : EReal) :=
        sum_step_val m c D ⟨n, hn⟩ (k0_pay7 (F := Ideal)) c' s'
      rw [e, e', Pay.pay7_apply, zero_add, accSum_first D n h0]
    · have hp : n - 1 < cfg0.N := Nat.lt_of_le_of_lt (Nat.sub_le _ _) hn
      have e : (outsAt0 m c n hn).2.2.2 (ix2 c' s')
          = k0_pay3 (F := Ideal) (sblk m c ⟨n, hn⟩) (k0_pay8 (xblk m c ⟨n, hn⟩) (tblk m c ⟨n, hn⟩)) (k0_pay9 (tblk m c ⟨n, hn⟩)) (outsAt0 m c (n - 1) hp).2.2.2 (ix2 c' s') :=
        congrFun (sum_later m c ⟨n, hn⟩ h0) (ix2 c' s')
      have e' : k0_pay3 (F := Ideal) (sblk m c ⟨n, hn⟩) (k0_pay8 (xblk m c ⟨n, hn⟩) (tblk m c ⟨n, hn⟩)) (k0_pay9 (tblk m c ⟨n, hn⟩)) (outsAt0 m c (n - 1) hp).2.2.2 (ix2 c' s')
          = (outsAt0 m c (n - 1) hp).2.2.2 (ix2 c' s') + ((tileSum D n c' s' : ℝ) : EReal) :=
        sum_step_val m c D ⟨n, hn⟩ (outsAt0 m c (n - 1) hp).2.2.2 c' s'
      rw [e, e', ih (n - 1) (by omega) hp, ← EReal.coe_add, accSum_later D n h0]

/-- The count accumulator after position `t`. -/
theorem scratch_cnt (c : Dev nD) (D : DataAt m c) (t : Fin cfg0.N) (c' : Fin 64) (s' : Fin 8) :
    (outsAt0 m c t.val t.isLt).2.2.1 (ix2 c' s') = ((D.accCnt (t.val / 64) (t.val % 64 + 1) c' s' : ℝ) : EReal) := by
  exact cnt_inv m c D c' s' t.val t.isLt

/-- The loss accumulator after position `t`. -/
theorem scratch_sum (c : Dev nD) (D : DataAt m c) (t : Fin cfg0.N) (c' : Fin 64) (s' : Fin 8) :
    (outsAt0 m c t.val t.isLt).2.2.2 (ix2 c' s') = ((D.accSum (t.val / 64) (t.val % 64 + 1) c' s' : ℝ) : EReal) := by
  exact sum_inv m c D c' s' t.val t.isLt

/-- The count output block after a shard's last tile: the shard's whole count. -/
theorem out_cnt (c : Dev nD) (D : DataAt m c) (t : Fin cfg0.N) (h63 : t.val % 64 = 63) (c' : Fin 64) (s' : Fin 8) :
    (outsAt0 m c t.val t.isLt).1 (ix3 (0 : Fin 1) c' s') = ((D.accCnt (t.val / 64) 64 c' s' : ℝ) : EReal) := by
  have h0 : ¬t.val % 64 = 0 := by omega
  have e : (64 : ℕ) = t.val % 64 + 1 := by omega
  rw [congrFun (out3_last m c t h63) (ix3 (0 : Fin 1) c' s'), Pay.pay4_apply, ← cnt_later m c t h0, scratch_cnt m c D t c' s', ← e]

/-- The loss output block after a shard's last tile: the shard's whole summed loss. -/
theorem out_sum (c : Dev nD) (D : DataAt m c) (t : Fin cfg0.N) (h63 : t.val % 64 = 63) (c' : Fin 64) (s' : Fin 8) :
    (outsAt0 m c t.val t.isLt).2.1 (ix3 (0 : Fin 1) c' s') = ((D.accSum (t.val / 64) 64 c' s' : ℝ) : EReal) := by
  have h0 : ¬t.val % 64 = 0 := by omega
  have e : (64 : ℕ) = t.val % 64 + 1 := by omega
  rw [congrFun (out4_last m c t h63) (ix3 (0 : Fin 1) c' s'), Pay.pay5_apply, ← sum_later m c t h0, scratch_sum m c D t c' s', ← e]

end Cert.KernelIdeal.Accum

end
-- ==== Proof.KArray.lean ====
/-
  The two result arrays after the run, and what the host lines after the region make of them.

  Output block `sh` of either array is written back once, at shard `sh`'s last tile, so the arrays end holding each
  shard's whole count and whole summed loss per group. The host then adds the two shards, and over the 64 x 8 groups
  sums the quotient sum / max (count, 1) where the count is positive, zero elsewhere.
-/
import proofs.«415713_j71244917506325_3_alg».proof.Proof.KAccum
import Idealize.ShloMosaic.Lib.IdealHost

set_option maxRecDepth 16384

noncomputable section

open scoped BigOperators

namespace Cert.KernelIdeal.Arr

open Cert.KernelIdeal Cert.KernelIdeal.Gen Cert.KernelIdeal.Accum Cert.Spec Idealize.ShloMosaic Idealize.ShloMosaic.ValueIdx Idealize.SL.Sem

variable (m : (ℓ : Loc nD τ sig) → Buf (Elt Ideal) ℓ)

/-! ## The two result arrays -/

/-- Where the result windows' block sits at grid position `t`: block `t / 64` along the shard axis, the whole of the other two. -/
theorem idx3 : ∀ t : Fin cfg0.N, win0_3.index t (0 : Fin 3) = t.val / 64 ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val / 64 ∧ win0_4.index t (1 : Fin 3) = 0 ∧ win0_4.index t (2 : Fin 3) = 0 :=
  (by decide +kernel : ∀ t : Fin grid0.N, _)

/-- The count array as one function of its index: entry `(sh, c', s')` is shard `sh`'s whole count of group `(c', s')`. -/
def cntArr (c : Dev nD) (D : DataAt m c) : S2x64x8.Idx → EReal :=
  fun i => ((D.accCnt (i 0).val 64 (i 1) (i 2) : ℝ) : EReal)

/-- The loss array as one function of its index: entry `(sh, c', s')` is shard `sh`'s whole summed loss of group `(c', s')`. -/
def sumArr (c : Dev nD) (D : DataAt m c) : S2x64x8.Idx → EReal :=
  fun i => ((D.accSum (i 0).val 64 (i 1) (i 2) : ℝ) : EReal)

/-- Entry `(0, b, d)` of the block at position `t` is entry `(t / 64, b, d)` of the count array. -/
theorem emb3 (t : Fin cfg0.N) (b : Fin 64) (d : Fin 8) (h : t.val / 64 < 2) :
    ((cfg0.win 3).blk t).view.emb (ix3 (0 : Fin 1) b d) = (ix3 (⟨t.val / 64, h⟩ : Fin 2) b d : S2x64x8.Idx) := by
  obtain ⟨e0, e1, e2⟩ := idx3 t
  funext a
  apply Fin.ext
  match a with
  | ⟨0, _⟩ => show win0_3.index t (0 : Fin 3) * 1 + 1 * 0 = t.val / 64; omega
  | ⟨1, _⟩ => show win0_3.index t (1 : Fin 3) * 64 + 1 * b.val = b.val; omega
  | ⟨2, _⟩ => show win0_3.index t (2 : Fin 3) * 8 + 1 * d.val = d.val; omega

/-- The same for the loss array. -/
theorem emb4 (t : Fin cfg0.N) (b : Fin 64) (d : Fin 8) (h : t.val / 64 < 2) :
    ((cfg0.win 4).blk t).view.emb (ix3 (0 : Fin 1) b d) = (ix3 (⟨t.val / 64, h⟩ : Fin 2) b d : S2x64x8.Idx) := by
  obtain ⟨e0, e1, e2⟩ := idx4 t
  funext a
  apply Fin.ext
  match a with
  | ⟨0, _⟩ => show win0_4.index t (0 : Fin 3) * 1 + 1 * 0 = t.val / 64; omega
  | ⟨1, _⟩ => show win0_4.index t (1 : Fin 3) * 64 + 1 * b.val = b.val; omega
  | ⟨2, _⟩ => show win0_4.index t (2 : Fin 3) * 8 + 1 * d.val = d.val; omega

/-- What a shard's last tile writes back into the count array is that shard's block of `cntArr`. -/
theorem flushed_cnt (c : Dev nD) (D : DataAt m c) (t : Fin cfg0.N) (hf : (cfg0.win 3).flush t = true) :
    (dats m 0 c).flushed 3 t = ((cfg0.win 3).blk t).view.read (Elt Ideal) (cntArr m c D) := by
  have h63 : t.val % 64 = 63 := (flush0_3 t).mp hf
  have hlt : t.val / 64 < 2 := by have := t.isLt; have hN : cfg0.N = 128 := N_0; omega
  show (cfg0.win 3).cut (grid0.coords t) ((dats m 0 c).after 3 t) = _
  rw [after0_3]
  funext y
  obtain ⟨a, b, d, rfl⟩ : ∃ (a : Fin 1) (b : Fin 64) (d : Fin 8), (y : S1x64x8.Idx) = ix3 a b d := ⟨y 0, y 1, y 2, eq_ix3 (n0 := 1) (n1 := 64) (n2 := 8) y⟩
  obtain rfl : a = 0 := Subsingleton.elim _ _
  show (outsAt0 m c t.val t.isLt).1 (ix3 (0 : Fin 1) b d) = cntArr m c D (((cfg0.win 3).blk t).view.emb (ix3 (0 : Fin 1) b d))
  rw [out_cnt m c D t h63 b d, emb3 t b d hlt]
  rfl

/-- What a shard's last tile writes back into the loss array is that shard's block of `sumArr`. -/
theorem flushed_sum (c : Dev nD) (D : DataAt m c) (t : Fin cfg0.N) (hf : (cfg0.win 4).flush t = true) :
    (dats m 0 c).flushed 4 t = ((cfg0.win 4).blk t).view.read (Elt Ideal) (sumArr m c D) := by
  have h63 : t.val % 64 = 63 := (flush0_4 t).mp hf
  have hlt : t.val / 64 < 2 := by have := t.isLt; have hN : cfg0.N = 128 := N_0; omega
  show (cfg0.win 4).cut (grid0.coords t) ((dats m 0 c).after 4 t) = _
  rw [after0_4]
  funext y
  obtain ⟨a, b, d, rfl⟩ : ∃ (a : Fin 1) (b : Fin 64) (d : Fin 8), (y : S1x64x8.Idx) = ix3 a b d := ⟨y 0, y 1, y 2, eq_ix3 (n0 := 1) (n1 := 64) (n2 := 8) y⟩
  obtain rfl : a = 0 := Subsingleton.elim _ _
  show (outsAt0 m c t.val t.isLt).2.1 (ix3 (0 : Fin 1) b d) = sumArr m c D (((cfg0.win 4).blk t).view.emb (ix3 (0 : Fin 1) b d))
  rw [out_sum m c D t h63 b d, emb4 t b d hlt]
  rfl

/-- An index of the count array lies in position `t`'s block iff each coordinate lies in the block's range on its axis. -/
theorem mem_blk3 (t : Fin cfg0.N) (i : S2x64x8.Idx) :
    i ∈ ((cfg0.win 3).blk t).view.set ↔ ∀ a : Fin 3, win0_3.index t a * S1x64x8.size a ≤ (i a).val ∧ (i a).val < win0_3.index t a * S1x64x8.size a + S1x64x8.size a := by
  show i ∈ ((View.whole main_v0_0).slice (win0_3.rect t)).set ↔ _
  rw [View.set_slice_whole, Rect.mem_set_unit]
  exact Iff.rfl

/-- The same for the loss array. -/
theorem mem_blk4 (t : Fin cfg0.N) (i : S2x64x8.Idx) :
    i ∈ ((cfg0.win 4).blk t).view.set ↔ ∀ a : Fin 3, win0_4.index t a * S1x64x8.size a ≤ (i a).val ∧ (i a).val < win0_4.index t a * S1x64x8.size a + S1x64x8.size a := by
  show i ∈ ((View.whole main_v0_1).slice (win0_4.rect t)).set ↔ _
  rw [View.set_slice_whole, Rect.mem_set_unit]
  exact Iff.rfl

/-- The count array after the run: shard `sh`'s whole count of group `(c', s')`. -/
theorem arr_cnt (c : Dev nD) (D : DataAt m c) (sh : Fin 2) (c' : Fin 64) (s' : Fin 8) :
    (dats m 0 c).arrAt 3 cfg0.N (ix3 sh c' s') = ((D.accCnt sh.val 64 c' s' : ℝ) : EReal) := by
  have hN : cfg0.N = 128 := N_0
  have hsh : sh.val < 2 := sh.isLt
  obtain ⟨t, ht⟩ : ∃ t : Fin cfg0.N, t.val = 64 * sh.val + 63 := ⟨⟨64 * sh.val + 63, by rw [hN]; omega⟩, rfl⟩
  have hf : (cfg0.win 3).flush t = true := (flush0_3 t).mpr (by omega)
  refine ((dats m 0 c).arrAt_apply_of_mem 3 (cntArr m c D) (fun t hf => flushed_cnt m c D t hf) cfg0.N t (ix3 sh c' s') t.isLt hf ?_).trans rfl
  rw [mem_blk3]
  obtain ⟨e0, e1, e2⟩ := idx3 t
  have hc : c'.val < 64 := c'.isLt
  have hs : s'.val < 8 := s'.isLt
  intro a
  match a with
  | ⟨0, _⟩ => show win0_3.index t (0 : Fin 3) * 1 ≤ sh.val ∧ sh.val < win0_3.index t (0 : Fin 3) * 1 + 1; omega
  | ⟨1, _⟩ => show win0_3.index t (1 : Fin 3) * 64 ≤ c'.val ∧ c'.val < win0_3.index t (1 : Fin 3) * 64 + 64; omega
  | ⟨2, _⟩ => show win0_3.index t (2 : Fin 3) * 8 ≤ s'.val ∧ s'.val < win0_3.index t (2 : Fin 3) * 8 + 8; omega

/-- The loss array after the run: shard `sh`'s whole summed loss of group `(c', s')`. -/
theorem arr_sum (c : Dev nD) (D : DataAt m c) (sh : Fin 2) (c' : Fin 64) (s' : Fin 8) :
    (dats m 0 c).arrAt 4 cfg0.N (ix3 sh c' s') = ((D.accSum sh.val 64 c' s' : ℝ) : EReal) := by
  have hN : cfg0.N = 128 := N_0
  have hsh : sh.val < 2 := sh.isLt
  obtain ⟨t, ht⟩ : ∃ t : Fin cfg0.N, t.val = 64 * sh.val + 63 := ⟨⟨64 * sh.val + 63, by rw [hN]; omega⟩, rfl⟩
  have hf : (cfg0.win 4).flush t = true := (flush0_4 t).mpr (by omega)
  refine ((dats m 0 c).arrAt_apply_of_mem 4 (sumArr m c D) (fun t hf => flushed_sum m c D t hf) cfg0.N t (ix3 sh c' s') t.isLt hf ?_).trans rfl
  rw [mem_blk4]
  obtain ⟨e0, e1, e2⟩ := idx4 t
  have hc : c'.val < 64 := c'.isLt
  have hs : s'.val < 8 := s'.isLt
  intro a
  match a with
  | ⟨0, _⟩ => show win0_4.index t (0 : Fin 3) * 1 ≤ sh.val ∧ sh.val < win0_4.index t (0 : Fin 3) * 1 + 1; omega
  | ⟨1, _⟩ => show win0_4.index t (1 : Fin 3) * 64 ≤ c'.val ∧ c'.val < win0_4.index t (1 : Fin 3) * 64 + 64; omega
  | ⟨2, _⟩ => show win0_4.index t (2 : Fin 3) * 8 ≤ s'.val ∧ s'.val < win0_4.index t (2 : Fin 3) * 8 + 8; omega

/-! ## The host lines after the region, over any two arrays with real entries -/

/-- Adding the two shards: the host's sum over the shard axis of an array with real entries, from zero. -/
theorem shardSum (A : FVec Ideal S2x64x8 .f32) (hr : S2x64x8.ReducesTo [0] S64x8) (hS : 0 < S_.numel)
    (p0 p1 : Fin 64 → Fin 8 → ℝ)
    (h0 : ∀ c' s', A (ix3 (0 : Fin 2) c' s') = ((p0 c' s' : ℝ) : EReal))
    (h1 : ∀ c' s', A (ix3 (1 : Fin 2) c' s') = ((p1 c' s' : ℝ) : EReal)) (a : Fin 64) (b : Fin 8) :
    Host.reduceAdd (F := Ideal) A (constant (F := Ideal) S_ .f32 0x00000000#32) hr hS (ix2 a b) = ((p0 a b + p1 a b : ℝ) : EReal) := by
  have h : S2x64x8.Reduces [0] S64x8 := by decide
  have e : ∀ k : Fin 2, h.lift (ix2 a b) k = ix3 k a b := fun k => by
    funext d
    apply Fin.ext
    match d with
    | ⟨0, _⟩ => rfl
    | ⟨1, _⟩ => rfl
    | ⟨2, _⟩ => rfl
  rw [hostReduceAdd_apply, Ideal.hostReduceAdd_single hr h, constant_apply, Ideal.ofBits_zero_f32, zero_add]
  show ∑ k : Fin 2, A (h.lift (ix2 a b) k) = _
  rw [Fin.sum_univ_two, e, e, h0, h1, ← EReal.coe_add]

/-- One group's term: where the count is positive the quotient of the sum by the larger of the count and one, zero elsewhere,
    all among the real numbers. -/
theorem groupTerm (P Q : ℝ) :
    Scalar.select (FloatOps.cmpf (F := Ideal) (φ := .f32) .ogt (P : EReal) 0) (Ideal.div (Q : EReal) (max (P : EReal) 1)) (0 : EReal)
      = (((if 0 < P then Q / max P 1 else 0 : ℝ)) : EReal) := by
  have hmax : max (P : EReal) 1 = ((max P 1 : ℝ) : EReal) := by
    rw [← EReal.coe_one]; exact (EReal.coe_strictMono.monotone.map_max).symm
  have hne : max P 1 ≠ 0 := ne_of_gt (lt_of_lt_of_le one_pos (le_max_right P 1))
  rw [Ideal.cmpf_def]
  by_cases hP : 0 < P
  · have hc : Ideal.cmp .ogt (P : EReal) 0 = 1#1 := by
      unfold Ideal.cmp
      rw [decide_eq_true (EReal.coe_pos.mpr hP)]; rfl
    rw [hc, select_one, if_pos hP, hmax, Ideal.div_coe hne, ← EReal.coe_mul]
    congr 1
    rw [mul_one_div]
  · have hc : Ideal.cmp .ogt (P : EReal) 0 = 0#1 := by
      unfold Ideal.cmp
      rw [decide_eq_false (fun h => hP (EReal.coe_pos.mp h))]; rfl
    rw [hc, select_zero, if_neg hP, EReal.coe_zero]

/-- The host lines after the region, applied to a count array and a loss array with real entries: the two shards added, then over
    the 64 x 8 groups the sum of sum / max (count, 1) where the count is positive. -/
theorem tail_pure (A3 A4 : FVec Ideal S2x64x8 .f32) (hr : S2x64x8.ReducesTo [0] S64x8) (hS : 0 < S_.numel)
    (hb : S_.BroadcastsInDim S64x8 (![] : Fin 0 → Fin S64x8.rank)) (hr2 : S64x8.ReducesTo [0, 1] S_)
    (p0 p1 q0 q1 : Fin 64 → Fin 8 → ℝ)
    (h30 : ∀ c' s', A3 (ix3 (0 : Fin 2) c' s') = ((p0 c' s' : ℝ) : EReal))
    (h31 : ∀ c' s', A3 (ix3 (1 : Fin 2) c' s') = ((p1 c' s' : ℝ) : EReal))
    (h40 : ∀ c' s', A4 (ix3 (0 : Fin 2) c' s') = ((q0 c' s' : ℝ) : EReal))
    (h41 : ∀ c' s', A4 (ix3 (1 : Fin 2) c' s') = ((q1 c' s' : ℝ) : EReal)) (x : S_.Idx) :
    Host.reduceAdd (F := Ideal)
        (select
          (cmpf (F := Ideal) .ogt (Host.reduceAdd (F := Ideal) A3 (constant (F := Ideal) S_ .f32 0x00000000#32) hr hS)
            (broadcastInDim S64x8 ![] hb (constant (F := Ideal) S_ .f32 0x00000000#32)))
          (Host.divf (F := Ideal) (Host.reduceAdd (F := Ideal) A4 (constant (F := Ideal) S_ .f32 0x00000000#32) hr hS)
            (maximumf (F := Ideal) (Host.reduceAdd (F := Ideal) A3 (constant (F := Ideal) S_ .f32 0x00000000#32) hr hS)
              (broadcastInDim S64x8 ![] hb (constant (F := Ideal) S_ .f32 0x3F800000#32))))
          (broadcastInDim S64x8 ![] hb (constant (F := Ideal) S_ .f32 0x00000000#32)))
        (constant (F := Ideal) S_ .f32 0x00000000#32) hr2 hS x
      = ((∑ c' : Fin 64, ∑ s' : Fin 8,
            if 0 < p0 c' s' + p1 c' s' then (q0 c' s' + q1 c' s') / max (p0 c' s' + p1 c' s') 1 else 0 : ℝ) : EReal) := by
  rw [hostReduceAdd_apply, Ideal.hostReduceAdd_total hr2 (fun b => b.elim0), constant_apply, Ideal.ofBits_zero_f32, zero_add,
    sum_idx2, coe_sum]
  refine Finset.sum_congr rfl fun a _ => ?_
  rw [coe_sum]
  refine Finset.sum_congr rfl fun b _ => ?_
  rw [select_apply, cmpf_apply, hostDivf_apply, maximumf_apply, shardSum A3 hr hS p0 p1 h30 h31 a b,
    shardSum A4 hr hS q0 q1 h40 h41 a b, broadcastInDim_scalar_apply, broadcastInDim_scalar_apply, constant_apply, constant_apply,
    Ideal.ofBits_zero_f32, Ideal.ofBits_one_f32]
  exact groupTerm _ _

/-- The program's result after the host lines that follow the region: the grouped total. -/
theorem tail_value (c : Dev nD) (D : DataAt m c) :
    Pipeline.afterTail₀ cfgs (dats m) 0 (V0 m) [hostOps1, hostOps1_1, hostOps1_2] c main_v9
      = fun _ => ((groupedTotal (D.loss ∘ smp) (D.tt ∘ smp) (D.sg ∘ smp) : ℝ) : EReal) := by
  have h3 : Pipeline.withArrays (cfgs 0).spec c (V0 m c) (fun w => (dats m 0 c).arrAt w (cfgs 0).N) (Proc.devRef .tc main_v0_0)
      = (dats m 0 c).arrAt 3 cfg0.N := Pipeline.withArrays_arr spec0 launch0.win.arr_inj c _ _ 3
  have h4 : Pipeline.withArrays (cfgs 0).spec c (V0 m c) (fun w => (dats m 0 c).arrAt w (cfgs 0).N) (Proc.devRef .tc main_v0_1)
      = (dats m 0 c).arrAt 4 cfg0.N := Pipeline.withArrays_arr spec0 launch0.win.arr_inj c _ _ 4
  unfold Pipeline.afterTail₀
  show StableHlo.after (List.flatten [hostOps1, hostOps1_1, hostOps1_2]) _ (Proc.devRef .tc main_v9) = _
  simp only [hostOps1, hostOps1_1, hostOps1_2, List.flatten_cons, List.flatten_nil, List.append_nil, List.cons_append, List.nil_append]
  after_results
  simp only [StableHlo.TRef.ofBuf, StableHlo.TRef.toBuf, cast_eq, id_eq]
  rw [h3, h4]
  funext x
  refine (tail_pure _ _ _ _ _ _ (D.accCnt 0 64) (D.accCnt 1 64) (D.accSum 0 64) (D.accSum 1 64)
    (fun c' s' => arr_cnt m c D 0 c' s') (fun c' s' => arr_cnt m c D 1 c' s')
    (fun c' s' => arr_sum m c D 0 c' s') (fun c' s' => arr_sum m c D 1 c' s') x).trans ?_
  congr 1
  unfold groupedTotal
  refine Finset.sum_congr rfl fun a _ => Finset.sum_congr rfl fun b _ => ?_
  rw [D.accCnt_total, D.accSum_total]

/-- The idealized kernel's run: it ends with the result at the inputs' total and the arguments unchanged. -/
theorem run (ρ : Dev nD → PrngReg)
    (D : ∀ c : Dev nD, Cert.Spec.Data (m ((c.tc : Thread nD τ).loc main_arg0)) (m ((c.tc : Thread nD τ).loc main_arg1)) (m ((c.tc : Thread nD τ).loc main_arg2))) :
    θ_run (defs (F := Ideal)) (onTc (τ := τ) (main (F := Ideal))) ⟨m, fun _ => 0, ρ⟩ (fun r => ∀ c : Dev nD,
      r.2.mem ((c.tc : Thread nD τ).loc main_v9) = (fun _ => (((D c).total : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run (defs (F := Ideal)) _ _).mono (fun r h c => ?_) (Gen.run_main m ρ)
  refine ⟨?_, ?_, ?_, ?_⟩
  · refine ((h c).2 main_v9 (Pipeline.mem_restRefs_of main_v9 (by decide) (by decide))).trans ((tail_value m c (D c)).trans ?_)
    exact funext fun _ => congrArg (fun r : ℝ => (r : EReal)) ((D c).total_eq_grouped).symm
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))
  · exact ((h c).1 2).trans (((dats m 0 c).arrAt_in 2 rfl _).trans ((A_eq m c 2).trans (V_main_arg2 m c)))

end Cert.KernelIdeal.Arr

end
-- ==== Proof.RLoss.lean ====
/-
  The reference's per-sample loss at the ideal values, for inputs that are real data.

  log_softmax subtracts the row's largest entry M, and from that the logarithm of the summed exponentials; the label's
  entry of the row is taken (the label is in range, so the gather reads that entry and the in-range test holds), and its
  negation is (M + log Σ exp (x - M)) - x_label: the cross-entropy `lossOf`.
-/
import proofs.«415713_j71244917506325_3_alg».proof.Proof.RefRead
import proofs.«415713_j71244917506325_3_alg».proof.Proof.Spec
import Idealize.ShloMosaic.Lib.StableHlo.Predicate
import Idealize.ShloMosaic.Lib.ValueLayout

noncomputable section

open scoped BigOperators

namespace Cert.ReferenceIdeal.RLoss

open Cert.ReferenceIdeal Cert.ReferenceIdeal.ReadP Cert.Spec Idealize.ShloMosaic Idealize.ShloMosaic.ValueIdx

/-! ## The row's largest entry -/

/-- The pattern of minus infinity is the least extended real. -/
private theorem ofBits_negInf : Ideal.ofBits .f32 0xFF800000#32 = (⊥ : EReal) := by
  simp [Ideal.ofBits, Ideal.ieee]

/-- The fold of the maximum from the least element over finitely many real numbers is their largest, read in the extended reals. -/
private theorem fold_max_coe (v : Fin 64 → ℝ) :
    (Finset.univ : Finset (Fin 64)).fold max (⊥ : EReal) (fun k => ((v k : ℝ) : EReal)) = ((rowMax v : ℝ) : EReal) := by
  unfold rowMax
  have h1 : (Finset.univ : Finset (Fin 64)).fold max (⊥ : EReal) (fun k => ((v k : ℝ) : EReal))
      = (Finset.univ : Finset (Fin 64)).sup (fun k => ((v k : ℝ) : EReal)) := rfl
  rw [h1, ← Finset.sup'_eq_sup Finset.univ_nonempty]
  exact (Finset.comp_sup'_eq_sup'_comp Finset.univ_nonempty (fun r : ℝ => (r : EReal)) (fun x y => EReal.coe_strictMono.monotone.map_sup x y)).symm

/-- Class `k` put back on the reduced axis of sample `i` is the entry (i, k). -/
private theorem lift_row (h : S1048576x64.Reduces [1] S1048576) (i : Fin 1048576) (k : Fin (S1048576x64.size 1)) :
    h.lift (ix1 i) k = ix2 i (⟨k.val, k.isLt⟩ : Fin 64) := by
  funext c; apply Fin.ext
  fin_cases c <;> rfl

/-- The reduce with a maximum body from minus infinity over the 64 classes is the row's largest entry. -/
theorem rowMax_apply (X : FVec Ideal ⟨2, ![1048576, 64]⟩ .f32) (Tg Sg : IVec ⟨1, ![1048576]⟩ 32) (D : Data X Tg Sg) (i : Fin 1048576) :
    val_main_call0_v0 (F := Ideal) X (ix1 i) = ((rowMax (D.xr i) : ℝ) : EReal) := by
  unfold val_main_call0_v0
  have h : S1048576x64.Reduces [1] S1048576 := by decide
  rw [Host.reduce_eq_fold_single FloatOps.maximumf X _ Facts₀.reducesTo_S1048576x64_S1048576_d1 h Facts₀.h_S_]
  have hf : (X ∘ h.lift (ix1 i)) = fun k : Fin 64 => ((D.xr i k : ℝ) : EReal) :=
    funext fun k => (congrArg X (lift_row h i k)).trans (D.hx i ⟨k.val, k.isLt⟩)
  rw [val_main_call0_cst_apply]
  show (Finset.univ : Finset (Fin 64)).fold max (Ideal.ofBits .f32 0xFF800000#32) (X ∘ h.lift (ix1 i)) = _
  rw [hf, ofBits_negInf]
  exact fold_max_coe (D.xr i)

/-! ## log_softmax at one entry

Throughout, `M` is the row's largest entry and `Σ` the sum of the 64 exponentials of the entries less `M`. -/

section Row
variable (X : FVec Ideal ⟨2, ![1048576, 64]⟩ .f32) (Tg Sg : IVec ⟨1, ![1048576]⟩ 32) (D : Data X Tg Sg) (i : Fin 1048576)

/-- The maximum with minus infinity leaves the row's largest entry. -/
private theorem v2_apply : val_main_call0_v2 (F := Ideal) X (ix1 i) = ((rowMax (D.xr i) : ℝ) : EReal) := by
  rw [val_main_call0_v2_apply, val_main_call0_v1_apply, val_main_call0_cst_0_apply, rowMax_apply X Tg Sg D i]
  show max (Ideal.ofBits .f32 0xFF800000#32) _ = _
  rw [ofBits_negInf]
  exact max_eq_right bot_le

/-- The largest entry broadcast along the classes. -/
private theorem v4_apply (c : Fin 64) : val_main_call0_v4 (F := Ideal) X (ix2 i c) = ((rowMax (D.xr i) : ℝ) : EReal) := by
  rw [val_main_call0_v4_apply, val_main_call0_v3_apply]
  have e : idx_main_call0_v3 (idx_main_call0_v4 (ix2 i c)) = ix1 i := by
    funext a; match a with | ⟨0, _⟩ => rfl
  rw [e]
  exact v2_apply X Tg Sg D i

/-- The entry less the largest entry. -/
private theorem v5_apply (c : Fin 64) :
    val_main_call0_v5 (F := Ideal) X (ix2 i c) = ((D.xr i c - rowMax (D.xr i) : ℝ) : EReal) := by
  rw [val_main_call0_v5_apply, v4_apply X Tg Sg D i c, D.hx i c]
  show ((D.xr i c : ℝ) : EReal) - ((rowMax (D.xr i) : ℝ) : EReal) = _
  rw [← EReal.coe_sub]

/-- Its exponential. -/
private theorem v6_apply (c : Fin 64) :
    val_main_call0_v6 (F := Ideal) X (ix2 i c) = ((Real.exp (D.xr i c - rowMax (D.xr i)) : ℝ) : EReal) := by
  rw [val_main_call0_v6_apply, v5_apply X Tg Sg D i c]
  rfl

/-- The sum of the 64 exponentials. -/
private theorem v7_apply :
    val_main_call0_v7 (F := Ideal) X (ix1 i) = ((∑ k, Real.exp (D.xr i k - rowMax (D.xr i)) : ℝ) : EReal) := by
  rw [val_main_call0_v7_apply, val_main_call0_cst_1_apply]
  have e : ∀ k : Fin 64, val_main_call0_v6 (F := Ideal) X (idx_main_call0_v7 (ix1 i) k)
      = ((Real.exp (D.xr i k - rowMax (D.xr i)) : ℝ) : EReal) := by
    intro k
    have e' : idx_main_call0_v7 (ix1 i) k = ix2 i k := by
      funext a; match a with | ⟨0, _⟩ => rfl | ⟨1, _⟩ => rfl
    rw [e']
    exact v6_apply X Tg Sg D i k
  rw [Finset.sum_congr rfl (fun k _ => e k)]
  show Ideal.ofBits .f32 0x00000000#32 + _ = _
  rw [Ideal.ofBits_zero_f32, zero_add, ← coe_sum]

/-- The sum of the exponentials is positive. -/
private theorem sumExp_pos (v : Fin 64 → ℝ) : 0 < ∑ k, Real.exp (v k - rowMax v) :=
  Finset.sum_pos (fun k _ => Real.exp_pos _) Finset.univ_nonempty

/-- Its logarithm. -/
private theorem v9_apply :
    val_main_call0_v9 (F := Ideal) X (ix2 i (0 : Fin 1))
      = ((Real.log (∑ k, Real.exp (D.xr i k - rowMax (D.xr i))) : ℝ) : EReal) := by
  rw [val_main_call0_v9_apply, val_main_call0_v8_apply]
  have e : idx_main_call0_v8 (ix2 i (0 : Fin 1)) = ix1 i := by
    funext a; match a with | ⟨0, _⟩ => rfl
  rw [e, v7_apply X Tg Sg D i]
  show Ideal.log ((∑ k, Real.exp (D.xr i k - rowMax (D.xr i)) : ℝ) : EReal) = _
  rw [Ideal.log_coe, if_neg (not_le.mpr (sumExp_pos (D.xr i)))]

/-- log_softmax at class `c` of sample `i`: the entry less `M`, less `log Σ`. -/
theorem logSoftmax_apply (c : Fin 64) :
    val_main_v0 (F := Ideal) X (ix2 i c)
      = ((D.xr i c - rowMax (D.xr i) - Real.log (∑ k, Real.exp (D.xr i k - rowMax (D.xr i))) : ℝ) : EReal) := by
  rw [val_main_v0_apply, v5_apply X Tg Sg D i c, val_main_call0_v10_apply]
  have e : idx_main_call0_v10 (ix2 i c) = ix2 i (0 : Fin 1) := by
    funext a; match a with | ⟨0, _⟩ => rfl | ⟨1, _⟩ => rfl
  rw [e, v9_apply X Tg Sg D i]
  show ((D.xr i c - rowMax (D.xr i) : ℝ) : EReal) - _ = _
  rw [← EReal.coe_sub]

end Row

/-! ## take_along_axis at one sample -/

/-- A label below 64 is its word's value. -/
private theorem toNat_lab (t : Fin 64) : (BitVec.ofNat 32 t.val).toNat = t.val := by
  rw [BitVec.toNat_ofNat]
  exact Nat.mod_eq_of_lt (by have := t.isLt; omega)

private theorem toNat_lab_lt (t : Fin 64) : (BitVec.ofNat 32 t.val).toNat < 2 ^ 31 := by
  rw [toNat_lab]; have := t.isLt; omega

/-- The dimension numbers of the batched gather: samples batch, the class axis is collapsed and start-indexed. -/
private abbrev gd : GatherDims S1048576x64 S1048576x1x1 S1048576x1 := gather_S1048576x64_S1048576x1x1_S1048576x1_n_1_0_0_1_2_11

/-- The batched gather at sample `i` reads the operand's entry (i, t) when the start index at (i, 0, 0) is the word of `t`:
    on the sample axis the batch coordinate, on the class axis the start index clamped into 0 … 63. -/
private theorem gather_row {α : Type} (x : S1048576x64.Idx → α) (idx : IVec S1048576x1x1 32) (i : Fin 1048576) (t : Fin 64)
    (hidx : idx (ix3 i (0 : Fin 1) (0 : Fin 1)) = BitVec.ofNat 32 t.val) :
    Host.gather gd x idx (ix2 i (0 : Fin 1)) = x (ix2 i t) := by
  unfold Host.gather
  congr 1
  funext a
  apply Fin.ext
  match a with
  | ⟨0, h0⟩ =>
    show gd.start (ix2 i (0 : Fin 1)) idx ⟨0, h0⟩ + gd.batchCoord (ix2 i (0 : Fin 1)) ⟨0, h0⟩ + gd.offCoord (ix2 i (0 : Fin 1)) ⟨0, h0⟩ = i.val
    have hb : (⟨0, h0⟩ : Fin S1048576x64.rank) ∈ gd.operandBatchingDims := List.mem_singleton.mpr rfl
    rw [gd.start_batching _ _ _ hb, gd.offCoord_eq_zero _ _ (fun h => ((gd.mem_sKept _).1 h).2 hb)]
    unfold GatherDims.batchCoord
    rw [dif_pos hb, Nat.zero_add, Nat.add_zero]
    rfl
  | ⟨1, h1⟩ =>
    show gd.start (ix2 i (0 : Fin 1)) idx ⟨1, h1⟩ + gd.batchCoord (ix2 i (0 : Fin 1)) ⟨1, h1⟩ + gd.offCoord (ix2 i (0 : Fin 1)) ⟨1, h1⟩ = t.val
    have hnb : (⟨1, h1⟩ : Fin S1048576x64.rank) ∉ gd.operandBatchingDims :=
      fun h => Nat.one_ne_zero (congrArg Fin.val (List.mem_singleton.mp h))
    have hc : (⟨1, h1⟩ : Fin S1048576x64.rank) ∈ gd.collapsedSliceDims := List.mem_singleton.mpr rfl
    have hm : (⟨1, h1⟩ : Fin S1048576x64.rank) ∈ gd.startIndexMap := List.mem_singleton.mpr rfl
    rw [gd.batchCoord_eq_zero _ _ hnb, gd.offCoord_eq_zero _ _ (fun h => ((gd.mem_sKept _).1 h).1 hc)]
    unfold GatherDims.start
    rw [dif_pos hm]
    have hsi : gd.siIdx (ix2 i (0 : Fin 1)) ⟨List.idxOf (⟨1, h1⟩ : Fin S1048576x64.rank) gd.startIndexMap,
        List.idxOf_lt_length_iff.2 hm⟩ = ix3 i (0 : Fin 1) (0 : Fin 1) := by
      funext b; apply Fin.ext
      match b with
      | ⟨0, _⟩ => rfl
      | ⟨1, _⟩ => rfl
      | ⟨2, _⟩ => rfl
    rw [hsi, hidx, StableHlo.Predicate.toInt_ofNat_small _ (by have := t.isLt; omega)]
    show min (Int.toNat (t.val : ℤ)) (64 - 1) + 0 + 0 = t.val
    rw [Int.toNat_natCast]
    have := t.isLt
    omega

section Take
variable (X : FVec Ideal ⟨2, ![1048576, 64]⟩ .f32) (Tg Sg : IVec ⟨1, ![1048576]⟩ 32) (D : Data X Tg Sg) (i : Fin 1048576)
include D

/-- The labels as a column: sample `i`'s is the word of its label. -/
private theorem lab_apply : val_main_v1 (F := Ideal) Tg (ix2 i (0 : Fin 1)) = BitVec.ofNat 32 (D.tt i).val := by
  rw [val_main_v1_apply]
  have e : idx_main_v1 (ix2 i (0 : Fin 1)) = ix1 i := by
    funext a; match a with | ⟨0, _⟩ => rfl
  rw [e, D.ht i]

/-- A label is not negative, so the index taken is the label itself. -/
private theorem idx2_apply : val_main_call1_v4 (F := Ideal) Tg (ix2 i (0 : Fin 1)) = BitVec.ofNat 32 (D.tt i).val := by
  rw [val_main_call1_v4_apply, val_main_call1_v1_apply, val_main_call1_v0_apply, val_main_call1_c_apply, lab_apply X Tg Sg D i]
  have h0 : IntOp.cmpi .slt (BitVec.ofNat 32 (D.tt i).val) 0#32 = 0#1 := by
    apply eq_zero_of_ne_one
    intro h
    have h' := (StableHlo.Predicate.slt_iff_toNat (toNat_lab_lt (D.tt i)) (by decide)).mp h
    rw [show (0#32 : BitVec 32).toNat = 0 from rfl] at h'
    omega
  rw [h0, select_zero]

/-- The same index after the reshape to [N, 1, 1]. -/
private theorem idx3_apply :
    val_main_call1_v5 (F := Ideal) Tg (ix3 i (0 : Fin 1) (0 : Fin 1)) = BitVec.ofNat 32 (D.tt i).val := by
  rw [val_main_call1_v5_apply]
  have e : idx_main_call1_v5 (ix3 i (0 : Fin 1) (0 : Fin 1)) = ix2 i (0 : Fin 1) := by
    funext a
    match a with
    | ⟨0, _⟩ => exact Fin.ext (by show ((i.val * 1 + 0) * 1 + 0) / 1 = i.val; omega)
    | ⟨1, _⟩ => rfl
  rw [e]
  exact idx2_apply X Tg Sg D i

/-- The index is in range: at least 0 and at most 63. -/
private theorem inRange_elt : val_main_call1_v11 (F := Ideal) Tg (ix3 i (0 : Fin 1) (0 : Fin 1)) = 1#1 := by
  rw [val_main_call1_v11_apply, val_main_call1_v7_apply, val_main_call1_v10_apply, idx3_apply X Tg Sg D i,
    val_main_call1_v6_apply, val_main_call1_c_2_apply, val_main_call1_v9_apply, val_main_call1_v8_apply,
    val_main_call1_c_1_apply]
  have h1 : IntOp.cmpi .sge (BitVec.ofNat 32 (D.tt i).val) 0#32 = 1#1 :=
    (StableHlo.Predicate.sge_iff_toNat (toNat_lab_lt (D.tt i)) (by decide)).mpr (Nat.zero_le _)
  have h2 : IntOp.cmpi .sle (BitVec.ofNat 32 (D.tt i).val) 63#32 = 1#1 :=
    (StableHlo.Predicate.sle_iff_toNat (toNat_lab_lt (D.tt i)) (by decide)).mpr (by
      rw [toNat_lab]; have := (D.tt i).isLt; show (D.tt i).val ≤ 63; omega)
  rw [h1, h2]
  rfl

/-- The conjunction over the size-one axis of the in-range tests is that one test: true. -/
private theorem inRange_apply : val_main_call1_v12 (F := Ideal) Tg (ix2 i (0 : Fin 1)) = 1#1 := by
  unfold val_main_call1_v12
  have h : S1048576x1x1.Reduces [2] S1048576x1 := by decide
  rw [Host.reduce_eq_fold_single IntOp.andi _ _ Facts₀.reducesTo_S1048576x1x1_S1048576x1_d2 h Facts₀.h_S_]
  have hf : (val_main_call1_v11 (F := Ideal) Tg ∘ h.lift (ix2 i (0 : Fin 1))) = fun _ : Fin 1 => 1#1 := by
    funext k
    have e : h.lift (ix2 i (0 : Fin 1)) k = ix3 i (0 : Fin 1) (0 : Fin 1) := by
      funext c; apply Fin.ext
      have hk : k.val < 1 := k.isLt
      match c with
      | ⟨0, _⟩ => rfl
      | ⟨1, _⟩ => rfl
      | ⟨2, _⟩ => show k.val = 0; omega
    show val_main_call1_v11 (F := Ideal) Tg (h.lift (ix2 i (0 : Fin 1)) k) = 1#1
    rw [e]
    exact inRange_elt X Tg Sg D i
  rw [val_main_call1_c_3_apply]
  show (Finset.univ : Finset (Fin 1)).fold IntOp.andi 1#1 (val_main_call1_v11 (F := Ideal) Tg ∘ h.lift (ix2 i (0 : Fin 1))) = 1#1
  rw [hf]
  rfl

end Take

/-- The negated log-probability of sample `i`'s label is its loss. -/
theorem loss_apply (X : FVec Ideal ⟨2, ![1048576, 64]⟩ .f32) (Tg Sg : IVec ⟨1, ![1048576]⟩ 32) (D : Data X Tg Sg) (i : Fin 1048576) :
    val_main_v4 (F := Ideal) X Tg (ix1 i) = ((D.loss i : ℝ) : EReal) := by
  rw [val_main_v4_apply, val_main_v3_apply]
  have e : idx_main_v3 (ix1 i) = ix2 i (0 : Fin 1) := by
    funext a
    match a with
    | ⟨0, _⟩ => exact Fin.ext (by show i.val / 1 = i.val; omega)
    | ⟨1, _⟩ => rfl
  rw [e, val_main_v2_apply, inRange_apply X Tg Sg D i, select_one]
  have hg : val_main_call1_v13 (F := Ideal) X Tg (ix2 i (0 : Fin 1)) = val_main_v0 (F := Ideal) X (ix2 i (D.tt i)) :=
    gather_row (val_main_v0 (F := Ideal) X) (val_main_call1_v5 (F := Ideal) Tg) i (D.tt i) (idx3_apply X Tg Sg D i)
  rw [hg, logSoftmax_apply X Tg Sg D i (D.tt i)]
  show -((_ : ℝ) : EReal) = _
  rw [← EReal.coe_neg]
  unfold Data.loss lossOf
  congr 1
  ring

end Cert.ReferenceIdeal.RLoss

end
-- ==== Proof.RCounts.lean ====
/-
  The reference's group sizes at the ideal values, for labels in range.

  The key of sample i is 8 · class + subgroup, a number below 512 (no wrap-around). The scatter adds a one at every
  sample's key into 512 zeros, so entry k ends at the number of samples whose key is k; the gather reads, for sample i,
  the entry at its own key (non-negative, so the wrap of negative indices does not apply, and in range, so the clamp is
  the identity): the size of the sample's own (class, subgroup) group.
-/
import proofs.«415713_j71244917506325_3_alg».proof.Proof.RefRead
import proofs.«415713_j71244917506325_3_alg».proof.Proof.Spec
import Idealize.ShloMosaic.Lib.StableHlo.Predicate
import Idealize.ShloMosaic.Lib.ValueLayout
import Idealize.ShloMosaic.Lib.IdealHost

noncomputable section

open scoped BigOperators

namespace Cert.ReferenceIdeal.RCounts

open Cert.ReferenceIdeal Cert.ReferenceIdeal.ReadP Cert.Spec Idealize.ShloMosaic Idealize.ShloMosaic.ValueIdx

open Idealize.ShloMosaic.StableHlo.Predicate (ixP)

/-- The positions of a rank-1 array are its coordinates. -/
private def idxEquiv1 (n : Nat) : Fin n ≃ (⟨1, ![n]⟩ : Shape).Idx where
  toFun a := ix1 a
  invFun j := j 0
  left_inv _ := rfl
  right_inv j := (eq_ix1 j).symm

/-- The two ways of writing the position at coordinate `m` agree. -/
private theorem ofFin_eq_ix1 {n : Nat} (m : Fin n) : Shape.Idx.ofFin m = ix1 m := by
  funext a; match a with | ⟨0, _⟩ => rfl

/-! ## A scatter into a rank-1 table through a column of positions -/

section Scatter

variable {N n w : Nat} (d : ScatterDims ⟨1, ![N]⟩ ⟨2, ![n, 1]⟩ ⟨1, ![n]⟩)

/-- The start of update `j`'s window is the position row `j` of the column names, read signed. -/
private theorem scatter_start (hsd : d.scatterDimsToOperandDims = [0]) (hivd : d.indexVectorDim = 1)
    (idx : IVec ⟨2, ![n, 1]⟩ w) (j : (⟨1, ![n]⟩ : Shape).Idx) (a : Fin 1) :
    d.start j idx a = (idx (ixP (j 0))).toInt := by
  have ha0 : a = 0 := Subsingleton.elim _ _
  subst ha0
  have ha : (0 : Fin 1) ∈ d.scatterDimsToOperandDims := by rw [hsd]; exact List.mem_singleton.mpr rfl
  unfold ScatterDims.start
  rw [dif_pos ha]
  congr 2
  funext b
  match b with
  | ⟨0, _⟩ =>
    unfold ScatterDims.siIdx
    rw [dif_neg (by rw [hivd]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    show List.idxOf (0 : Fin 1) d.scatterDimsToOperandDims = 0
    rw [hsd]; simp

/-- The table's one axis is an inserted one: no window coordinate. -/
private theorem scatter_window (hiw : d.insertedWindowDims = [0]) (j : (⟨1, ![n]⟩ : Shape).Idx) (a : Fin 1) :
    d.window j a = 0 := by
  have ha0 : a = 0 := Subsingleton.elim _ _
  subst ha0
  unfold ScatterDims.window
  rw [dif_neg]
  show (0 : Fin 1) ∉ Shape.kept _ d.insertedWindowDims
  rw [hiw]
  simp [Shape.kept]

/-- Update `j` lands on entry `k` exactly when the position it names is `k`. -/
private theorem scatter_lands (hiw : d.insertedWindowDims = [0]) (hsd : d.scatterDimsToOperandDims = [0])
    (hivd : d.indexVectorDim = 1) (idx : IVec ⟨2, ![n, 1]⟩ w) (j : (⟨1, ![n]⟩ : Shape).Idx) (k : Fin N) :
    d.resultIdx? j idx = some (ix1 k) ↔ (idx (ixP (j 0))).toInt = (k.val : Int) := by
  have hN : (⟨1, ![N]⟩ : Shape).size 0 = N := rfl
  have hk := k.isLt
  unfold ScatterDims.resultIdx?
  split
  · next h =>
    rw [Option.some.injEq]
    constructor
    · intro e
      have hv : (d.start j idx 0 + d.window j 0).toNat = k.val := congrArg Fin.val (congrFun e 0)
      have h0 := (h 0).1
      rw [scatter_start d hsd hivd, scatter_window d hiw] at hv h0
      omega
    · intro e
      funext a
      have ha0 : a = 0 := Subsingleton.elim _ _
      subst ha0
      apply Fin.ext
      show (d.start j idx 0 + d.window j 0).toNat = k.val
      rw [scatter_start d hsd hivd, scatter_window d hiw, e]
      omega
  · next h =>
    constructor
    · intro e; exact absurd e (by simp)
    · intro e
      exfalso
      apply h
      intro a
      have ha0 : a = 0 := Subsingleton.elim _ _
      subst ha0
      rw [scatter_start d hsd hivd, scatter_window d hiw, e, hN]
      omega

/-- At the ideal values, entry `k` of a scatter-add into a rank-1 table: the entry plus the updates whose position
    is `k`. -/
private theorem scatterAdd_apply (hiw : d.insertedWindowDims = [0]) (hsd : d.scatterDimsToOperandDims = [0])
    (hivd : d.indexVectorDim = 1) (x : FVec Ideal ⟨1, ![N]⟩ .f32) (idx : IVec ⟨2, ![n, 1]⟩ w)
    (upd : FVec Ideal ⟨1, ![n]⟩ .f32) (k : Fin N) :
    Host.scatterAdd d x idx upd (ix1 k)
      = x (ix1 k) + ∑ a : Fin n, if (idx (ixP a)).toInt = (k.val : Int) then upd (ix1 a) else 0 := by
  unfold Host.scatterAdd
  rw [Ideal.hostScatterAdd_def]
  unfold Ideal.hostScatterAdd
  show (_ + _ : EReal) = _
  refine congrArg _ ?_
  rw [Finset.sum_filter]
  refine Fintype.sum_equiv (idxEquiv1 n).symm _ _ (fun j => ?_)
  have hj : (idxEquiv1 n).symm j = j 0 := rfl
  rw [hj]
  have hl := scatter_lands d hiw hsd hivd idx j k
  by_cases h : (idx (ixP (j 0))).toInt = (k.val : Int)
  · rw [if_pos h, if_pos (hl.2 h)]
    exact congrArg upd (eq_ix1 j)
  · rw [if_neg h, if_neg (fun e => h (hl.1 e))]

end Scatter

/-! ## The keys and the table of group sizes -/

section Keys

variable {X : FVec Ideal ⟨2, ![1048576, 64]⟩ .f32} {Tg Sg : IVec ⟨1, ![1048576]⟩ 32} (D : Data X Tg Sg)

/-- Sample `j`'s key as a number: 8 · class + subgroup. -/
private def keyN (j : Fin 1048576) : ℕ := 8 * (D.tt j).val + (D.sg j).val

private theorem keyN_lt (j : Fin 1048576) : keyN D j < 512 := by
  have h1 := (D.tt j).isLt
  have h2 := (D.sg j).isLt
  unfold keyN; omega

/-- Equal keys are equal labels: the subgroup is the key's remainder by 8, the class its quotient. -/
private theorem keyN_eq_iff (i j : Fin 1048576) : keyN D j = keyN D i ↔ D.tt j = D.tt i ∧ D.sg j = D.sg i := by
  have h1 := (D.sg j).isLt
  have h2 := (D.sg i).isLt
  unfold keyN
  constructor
  · intro h; exact ⟨Fin.ext (by omega), Fin.ext (by omega)⟩
  · rintro ⟨h, h'⟩; rw [h, h']

/-- The key as a 32-bit word: the product and the sum do not wrap. -/
private theorem key_apply (j : Fin 1048576) :
    val_main_v7 (F := Ideal) Tg Sg (ix1 j) = BitVec.ofNat 32 (keyN D j) := by
  rw [val_main_v7_apply, val_main_v6_apply, val_main_v5_apply, val_main_c_apply, D.ht, D.hs]
  have h1 := (D.tt j).isLt
  have h2 := (D.sg j).isLt
  apply BitVec.eq_of_toNat_eq
  simp only [IntOp.addi, IntOp.muli, keyN, BitVec.toNat_add, BitVec.toNat_mul, BitVec.toNat_ofNat]
  omega

/-- The keys as a column of scatter positions. -/
private theorem col_apply (a : Fin 1048576) :
    val_main_v10 (F := Ideal) Tg Sg (ixP a) = BitVec.ofNat 32 (keyN D a) := by
  have hidx : idx_main_v10 (ixP a) = ix1 a := by funext b; match b with | ⟨0, _⟩ => rfl
  rw [val_main_v10_apply, hidx, key_apply D a]

/-- The gather's position for sample `i`: its key, which is not negative, so no table length is added. -/
private theorem gidx_apply (i : Fin 1048576) :
    val_main_v17 (F := Ideal) Tg Sg (ixP i) = BitVec.ofNat 32 (keyN D i) := by
  have hk := keyN_lt D i
  have hidx : idx_main_v17 (ixP i) = ix1 i := by funext b; match b with | ⟨0, _⟩ => rfl
  rw [val_main_v17_apply, hidx, val_main_v16_apply, val_main_v13_apply, val_main_v12_apply, val_main_c_1_apply,
    key_apply D i]
  have hc : ¬ IntOp.cmpi .slt (BitVec.ofNat 32 (keyN D i)) 0#32 = 1#1 := by
    rw [StableHlo.Predicate.slt_iff_toNat (by simp only [BitVec.toNat_ofNat]; omega) (by decide)]
    simp
  unfold Scalar.select
  exact if_neg hc

/-- Entry `k` of the scattered table: the number of samples whose key is `k`. -/
private theorem table_apply (k : Fin 512) :
    val_main_v11 (F := Ideal) Tg Sg (ix1 k)
      = ((∑ j : Fin 1048576, if keyN D j = k.val then (1 : ℝ) else 0 : ℝ) : EReal) := by
  unfold val_main_v11
  rw [scatterAdd_apply _ rfl rfl rfl]
  rw [val_main_v9_apply, val_main_cst_0_apply, Ideal.ofBits_def, Ideal.ofBits_zero_f32, zero_add, coe_sum]
  refine Finset.sum_congr rfl fun a _ => ?_
  have hone : val_main_v8 (F := Ideal) (ix1 a) = 1 := by
    rw [val_main_v8_apply, val_main_cst_apply, Ideal.ofBits_def, Ideal.ofBits_one_f32]
  rw [col_apply D a, StableHlo.Predicate.toInt_ofNat_small _ (by have := keyN_lt D a; omega), hone]
  by_cases h : keyN D a = k.val
  · rw [if_pos h, if_pos (by exact_mod_cast h)]; rfl
  · rw [if_neg h, if_neg (fun e => h (by exact_mod_cast e))]; rfl

end Keys

/-- The divisor of sample `i`: the size of its own group. -/
theorem counts_apply (X : FVec Ideal ⟨2, ![1048576, 64]⟩ .f32) (Tg Sg : IVec ⟨1, ![1048576]⟩ 32) (D : Data X Tg Sg) (i : Fin 1048576) :
    val_main_v18 (F := Ideal) Tg Sg (ix1 i) = ((cnt D.tt D.sg (D.tt i) (D.sg i) : ℝ) : EReal) := by
  have hk := keyN_lt D i
  have hidx : min (val_main_v17 (F := Ideal) Tg Sg (ixP i)).toInt.toNat (512 - 1) = keyN D i := by
    rw [gidx_apply D i, StableHlo.Predicate.toInt_ofNat_small _ (by omega), Int.toNat_natCast]; omega
  have hgen : ∀ m : Fin 512, m.val = keyN D i →
      val_main_v11 (F := Ideal) Tg Sg (Shape.Idx.ofFin m) = ((cnt D.tt D.sg (D.tt i) (D.sg i) : ℝ) : EReal) := by
    intro m hm
    rw [ofFin_eq_ix1, table_apply D m, hm]
    rw [EReal.coe_eq_coe_iff]
    unfold cnt
    refine Finset.sum_congr rfl fun j _ => ?_
    simp only [keyN_eq_iff D i j]
  unfold val_main_v18
  rw [← ofFin_eq_ix1, StableHlo.Predicate.gather_take _ rfl rfl rfl rfl _ _ i (by decide)]
  exact hgen _ hidx

end Cert.ReferenceIdeal.RCounts

end
-- ==== Proof.LibTRefPlain.lean ====
/-
  A typed-reference operation at literal references is the plain operation.

  The operations of a function that the program calls are printed over typed references: a reference together with the
  proof that its buffer has the value's type, the operation's function transported along that proof. At a literal
  reference the proof is `rfl` and the transport is the identity, so the operation IS the plain one over the same
  buffers with the function itself — for every function, which is left a variable here: the equation never opens it.
  Stated with each typed reference at its buffer's own type, for the four arities a host line has.
-/
import Idealize.ShloMosaic.Lib.StableHlo

noncomputable section

namespace Idealize.ShloMosaic.StableHlo.TRefPlain

open Idealize.ShloMosaic Idealize.ShloMosaic.StableHlo

variable {τ : Topo} {sig : RefSig} {Val : EltTy → Type}

theorem nullary_eq (y : Ref sig .tc) (h1 : y.space ≠ .host) (h2 : y.isScoped = false) (v : y.ty.Contents Val) :
    (TRef.nullary (TRef.of (T := y.ty) y rfl h1 h2) v : HloOp τ sig Val)
      = StableHlo.nullary y v (TRef.dev (TRef.of (T := y.ty) y rfl h1 h2)) := rfl

theorem unary_eq (x y : Ref sig .tc) (hx1 : x.space ≠ .host) (hx2 : x.isScoped = false)
    (hy1 : y.space ≠ .host) (hy2 : y.isScoped = false) (f : x.ty.Contents Val → y.ty.Contents Val) :
    (TRef.unary (TRef.of (T := x.ty) x rfl hx1 hx2) (TRef.of (T := y.ty) y rfl hy1 hy2) f : HloOp τ sig Val)
      = StableHlo.unary x y f (TRef.dev (TRef.of (T := x.ty) x rfl hx1 hx2)) (TRef.dev (TRef.of (T := y.ty) y rfl hy1 hy2)) := rfl

theorem binary_eq (a b y : Ref sig .tc) (ha1 : a.space ≠ .host) (ha2 : a.isScoped = false)
    (hb1 : b.space ≠ .host) (hb2 : b.isScoped = false) (hy1 : y.space ≠ .host) (hy2 : y.isScoped = false)
    (f : a.ty.Contents Val → b.ty.Contents Val → y.ty.Contents Val) :
    (TRef.binary (TRef.of (T := a.ty) a rfl ha1 ha2) (TRef.of (T := b.ty) b rfl hb1 hb2)
        (TRef.of (T := y.ty) y rfl hy1 hy2) f : HloOp τ sig Val)
      = StableHlo.binary a b y f (TRef.dev (TRef.of (T := a.ty) a rfl ha1 ha2))
          (TRef.dev (TRef.of (T := b.ty) b rfl hb1 hb2)) (TRef.dev (TRef.of (T := y.ty) y rfl hy1 hy2)) := rfl

theorem ternary_eq (c a b y : Ref sig .tc) (hc1 : c.space ≠ .host) (hc2 : c.isScoped = false)
    (ha1 : a.space ≠ .host) (ha2 : a.isScoped = false) (hb1 : b.space ≠ .host) (hb2 : b.isScoped = false)
    (hy1 : y.space ≠ .host) (hy2 : y.isScoped = false)
    (f : c.ty.Contents Val → a.ty.Contents Val → b.ty.Contents Val → y.ty.Contents Val) :
    (TRef.ternary (TRef.of (T := c.ty) c rfl hc1 hc2) (TRef.of (T := a.ty) a rfl ha1 ha2)
        (TRef.of (T := b.ty) b rfl hb1 hb2) (TRef.of (T := y.ty) y rfl hy1 hy2) f : HloOp τ sig Val)
      = StableHlo.ternary c a b y f (TRef.dev (TRef.of (T := c.ty) c rfl hc1 hc2))
          (TRef.dev (TRef.of (T := a.ty) a rfl ha1 ha2)) (TRef.dev (TRef.of (T := b.ty) b rfl hb1 hb2))
          (TRef.dev (TRef.of (T := y.ty) y rfl hy1 hy2)) := rfl

end Idealize.ShloMosaic.StableHlo.TRefPlain

end
-- ==== Proof.RefOpsP.lean ====
/- Tables only, made from the operation list of the reference's run (RefRun.lean's `ops`, each line the printed operation of
   proof/ReferenceIdeal.lean, an outlined function's operations standing at its call): the same 62 operations respelt over the
   plain operation builders (`opsP`), the proof that the two lists are equal — position by position the lemma of
   LibTRefPlain.lean for a typed-reference operation, `rfl` for a plain one —, and the tuple of the operations' buffer facts.
   The run over them is proved in RefRunProof.lean. -/
import proofs.«415713_j71244917506325_3_alg».proof.Proof.RefRun
import proofs.«415713_j71244917506325_3_alg».proof.Proof.LibTRefPlain

noncomputable section

namespace Cert.ReferenceIdeal.RunP

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- @main's 62 operations, in order, each over the plain builders at its own buffers. -/
abbrev opsP : List (HloOp τ sig (Elt F)) :=
  [ nullary main_call0_cst ((constant S_ .f32 0xFF800000#32) : (⟨S_, .f32⟩ : BufTy).Contents (Elt F)),
    binary main_arg0 main_call0_cst main_call0_v0 ((fun x v => Host.reduce FloatOps.maximumf x v reducesTo_S1048576x64_S1048576_d1 h_S_) : (⟨S1048576x64, .f32⟩ : BufTy).Contents (Elt F) → (⟨S_, .f32⟩ : BufTy).Contents (Elt F) → (⟨S1048576, .f32⟩ : BufTy).Contents (Elt F)),
    nullary main_call0_cst_0 ((constant S_ .f32 0xFF800000#32) : (⟨S_, .f32⟩ : BufTy).Contents (Elt F)),
    unary main_call0_cst_0 main_call0_v1 ((broadcastInDim S1048576 ![] bcast_S_S1048576) : (⟨S_, .f32⟩ : BufTy).Contents (Elt F) → (⟨S1048576, .f32⟩ : BufTy).Contents (Elt F)),
    binary main_call0_v1 main_call0_v0 main_call0_v2 (maximumf : (⟨S1048576, .f32⟩ : BufTy).Contents (Elt F) → (⟨S1048576, .f32⟩ : BufTy).Contents (Elt F) → (⟨S1048576, .f32⟩ : BufTy).Contents (Elt F)),
    unary main_call0_v2 main_call0_v3 ((broadcastInDim S1048576x1 ![0] bcast_S1048576_S1048576x1_0) : (⟨S1048576, .f32⟩ : BufTy).Contents (Elt F) → (⟨S1048576x1, .f32⟩ : BufTy).Contents (Elt F)),
    unary main_call0_v3 main_call0_v4 ((broadcastInDim S1048576x64 ![0, 1] bcast_S1048576x1_S1048576x64_0_1) : (⟨S1048576x1, .f32⟩ : BufTy).Contents (Elt F) → (⟨S1048576x64, .f32⟩ : BufTy).Contents (Elt F)),
    binary main_arg0 main_call0_v4 main_call0_v5 (subf : (⟨S1048576x64, .f32⟩ : BufTy).Contents (Elt F) → (⟨S1048576x64, .f32⟩ : BufTy).Contents (Elt F) → (⟨S1048576x64, .f32⟩ : BufTy).Contents (Elt F)),
    unary main_call0_v5 main_call0_v6 (Host.exp : (⟨S1048576x64, .f32⟩ : BufTy).Contents (Elt F) → (⟨S1048576x64, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S1048576x64_S1048576_d1 h_S_) : (⟨S1048576x64, .f32⟩ : BufTy).Contents (Elt F) → (⟨S_, .f32⟩ : BufTy).Contents (Elt F) → (⟨S1048576, .f32⟩ : BufTy).Contents (Elt F)),
    unary main_call0_v7 main_call0_v8 ((broadcastInDim S1048576x1 ![0] bcast_S1048576_S1048576x1_0) : (⟨S1048576, .f32⟩ : BufTy).Contents (Elt F) → (⟨S1048576x1, .f32⟩ : BufTy).Contents (Elt F)),
    unary main_call0_v8 main_call0_v9 (Host.log : (⟨S1048576x1, .f32⟩ : BufTy).Contents (Elt F) → (⟨S1048576x1, .f32⟩ : BufTy).Contents (Elt F)),
    unary main_call0_v9 main_call0_v10 ((broadcastInDim S1048576x64 ![0, 1] bcast_S1048576x1_S1048576x64_0_1) : (⟨S1048576x1, .f32⟩ : BufTy).Contents (Elt F) → (⟨S1048576x64, .f32⟩ : BufTy).Contents (Elt F)),
    binary main_call0_v5 main_call0_v10 main_v0 (subf : (⟨S1048576x64, .f32⟩ : BufTy).Contents (Elt F) → (⟨S1048576x64, .f32⟩ : BufTy).Contents (Elt F) → (⟨S1048576x64, .f32⟩ : BufTy).Contents (Elt F)),
    unary main_arg1 main_v1 (broadcastInDim S1048576x1 ![0] bcast_S1048576_S1048576x1_0 : (⟨S1048576, .i32⟩ : BufTy).Contents (Elt F) → (⟨S1048576x1, .i32⟩ : BufTy).Contents (Elt F)),
    nullary main_call1_c ((constantI S_ 32 0#32) : (⟨S_, .i32⟩ : BufTy).Contents (Elt F)),
    unary main_call1_c main_call1_v0 ((broadcastInDim S1048576x1 ![] bcast_S_S1048576x1) : (⟨S_, .i32⟩ : BufTy).Contents (Elt F) → (⟨S1048576x1, .i32⟩ : BufTy).Contents (Elt F)),
    binary main_v1 main_call1_v0 main_call1_v1 ((cmpi .slt) : (⟨S1048576x1, .i32⟩ : BufTy).Contents (Elt F) → (⟨S1048576x1, .i32⟩ : BufTy).Contents (Elt F) → (⟨S1048576x1, .i1⟩ : BufTy).Contents (Elt F)),
    nullary main_call1_c_0 ((constantI S_ 32 64#32) : (⟨S_, .i32⟩ : BufTy).Contents (Elt F)),
    unary main_call1_c_0 main_call1_v2 ((broadcastInDim S1048576x1 ![] bcast_S_S1048576x1) : (⟨S_, .i32⟩ : BufTy).Contents (Elt F) → (⟨S1048576x1, .i32⟩ : BufTy).Contents (Elt F)),
    binary main_v1 main_call1_v2 main_call1_v3 (addi : (⟨S1048576x1, .i32⟩ : BufTy).Contents (Elt F) → (⟨S1048576x1, .i32⟩ : BufTy).Contents (Elt F) → (⟨S1048576x1, .i32⟩ : BufTy).Contents (Elt F)),
    ternary main_call1_v1 main_call1_v3 main_v1 main_call1_v4 (select : (⟨S1048576x1, .i1⟩ : BufTy).Contents (Elt F) → (⟨S1048576x1, .i32⟩ : BufTy).Contents (Elt F) → (⟨S1048576x1, .i32⟩ : BufTy).Contents (Elt F) → (⟨S1048576x1, .i32⟩ : BufTy).Contents (Elt F)),
    reshape main_call1_v4 main_call1_v5 rfl shapeCasts_S1048576x1_S1048576x1x1,
    nullary main_call1_c_1 ((constantI S1 32 63#32) : (⟨S1, .i32⟩ : BufTy).Contents (Elt F)),
    nullary main_call1_c_2 ((constantI S_ 32 0#32) : (⟨S_, .i32⟩ : BufTy).Contents (Elt F)),
    unary main_call1_c_2 main_call1_v6 ((broadcastInDim S1048576x1x1 ![] bcast_S_S1048576x1x1) : (⟨S_, .i32⟩ : BufTy).Contents (Elt F) → (⟨S1048576x1x1, .i32⟩ : BufTy).Contents (Elt F)),
    binary main_call1_v5 main_call1_v6 main_call1_v7 ((cmpi .sge) : (⟨S1048576x1x1, .i32⟩ : BufTy).Contents (Elt F) → (⟨S1048576x1x1, .i32⟩ : BufTy).Contents (Elt F) → (⟨S1048576x1x1, .i1⟩ : BufTy).Contents (Elt F)),
    unary main_call1_c_1 main_call1_v8 ((broadcastInDim S1x1x1 ![2] bcast_S1_S1x1x1_2) : (⟨S1, .i32⟩ : BufTy).Contents (Elt F) → (⟨S1x1x1, .i32⟩ : BufTy).Contents (Elt F)),
    unary main_call1_v8 main_call1_v9 ((broadcastInDim S1048576x1x1 ![0, 1, 2] bcast_S1x1x1_S1048576x1x1_0_1_2) : (⟨S1x1x1, .i32⟩ : BufTy).Contents (Elt F) → (⟨S1048576x1x1, .i32⟩ : BufTy).Contents (Elt F)),
    binary main_call1_v5 main_call1_v9 main_call1_v10 ((cmpi .sle) : (⟨S1048576x1x1, .i32⟩ : BufTy).Contents (Elt F) → (⟨S1048576x1x1, .i32⟩ : BufTy).Contents (Elt F) → (⟨S1048576x1x1, .i1⟩ : BufTy).Contents (Elt F)),
    binary main_call1_v7 main_call1_v10 main_call1_v11 (andi : (⟨S1048576x1x1, .i1⟩ : BufTy).Contents (Elt F) → (⟨S1048576x1x1, .i1⟩ : BufTy).Contents (Elt F) → (⟨S1048576x1x1, .i1⟩ : BufTy).Contents (Elt F)),
    nullary main_call1_c_3 ((constantI S_ 1 1#1) : (⟨S_, .i1⟩ : BufTy).Contents (Elt F)),
    binary main_call1_v11 main_call1_c_3 main_call1_v12 ((fun x v => Host.reduce IntOp.andi x v reducesTo_S1048576x1x1_S1048576x1_d2 h_S_) : (⟨S1048576x1x1, .i1⟩ : BufTy).Contents (Elt F) → (⟨S_, .i1⟩ : BufTy).Contents (Elt F) → (⟨S1048576x1, .i1⟩ : BufTy).Contents (Elt F)),
    binary main_v0 main_call1_v5 main_call1_v13 ((fun x i => Host.gather gather_S1048576x64_S1048576x1x1_S1048576x1_n_1_0_0_1_2_11 x i) : (⟨S1048576x64, .f32⟩ : BufTy).Contents (Elt F) → (⟨S1048576x1x1, .i32⟩ : BufTy).Contents (Elt F) → (⟨S1048576x1, .f32⟩ : BufTy).Contents (Elt F)),
    nullary main_call1_cst ((constant S_ .f32 0x7FC00000#32) : (⟨S_, .f32⟩ : BufTy).Contents (Elt F)),
    unary main_call1_cst main_call1_v14 ((broadcastInDim S1048576x1 ![] bcast_S_S1048576x1) : (⟨S_, .f32⟩ : BufTy).Contents (Elt F) → (⟨S1048576x1, .f32⟩ : BufTy).Contents (Elt F)),
    ternary main_call1_v12 main_call1_v13 main_call1_v14 main_v2 (select : (⟨S1048576x1, .i1⟩ : BufTy).Contents (Elt F) → (⟨S1048576x1, .f32⟩ : BufTy).Contents (Elt F) → (⟨S1048576x1, .f32⟩ : BufTy).Contents (Elt F) → (⟨S1048576x1, .f32⟩ : BufTy).Contents (Elt F)),
    reshape main_v2 main_v3 rfl shapeCasts_S1048576x1_S1048576,
    unary main_v3 main_v4 (Host.negf : (⟨S1048576, .f32⟩ : BufTy).Contents (Elt F) → (⟨S1048576, .f32⟩ : BufTy).Contents (Elt F)),
    nullary main_c (constantI S_ 32 8#32),
    unary main_c main_v5 (broadcastInDim S1048576 ![] bcast_S_S1048576 : (⟨S_, .i32⟩ : BufTy).Contents (Elt F) → (⟨S1048576, .i32⟩ : BufTy).Contents (Elt F)),
    binary main_arg1 main_v5 main_v6 (muli : (⟨S1048576, .i32⟩ : BufTy).Contents (Elt F) → (⟨S1048576, .i32⟩ : BufTy).Contents (Elt F) → (⟨S1048576, .i32⟩ : BufTy).Contents (Elt F)),
    binary main_v6 main_arg2 main_v7 (addi : (⟨S1048576, .i32⟩ : BufTy).Contents (Elt F) → (⟨S1048576, .i32⟩ : BufTy).Contents (Elt F) → (⟨S1048576, .i32⟩ : BufTy).Contents (Elt F)),
    nullary main_cst (constant S_ .f32 0x3F800000#32),
    unary main_cst main_v8 (broadcastInDim S1048576 ![] bcast_S_S1048576 : (⟨S_, .f32⟩ : BufTy).Contents (Elt F) → (⟨S1048576, .f32⟩ : BufTy).Contents (Elt F)),
    nullary main_cst_0 (constant S_ .f32 0x00000000#32),
    unary main_cst_0 main_v9 (broadcastInDim S512 ![] bcast_S_S512 : (⟨S_, .f32⟩ : BufTy).Contents (Elt F) → (⟨S512, .f32⟩ : BufTy).Contents (Elt F)),
    unary main_v7 main_v10 (broadcastInDim S1048576x1 ![0] bcast_S1048576_S1048576x1_0 : (⟨S1048576, .i32⟩ : BufTy).Contents (Elt F) → (⟨S1048576x1, .i32⟩ : BufTy).Contents (Elt F)),
    ternary main_v9 main_v10 main_v8 main_v11 ((fun x i u => Host.scatterAdd scatter_S512_S1048576x1_S1048576_n_0_0_1 x i u) : (⟨S512, .f32⟩ : BufTy).Contents (Elt F) → (⟨S1048576x1, .i32⟩ : BufTy).Contents (Elt F) → (⟨S1048576, .f32⟩ : BufTy).Contents (Elt F) → (⟨S512, .f32⟩ : BufTy).Contents (Elt F)),
    nullary main_c_1 (constantI S_ 32 0#32),
    unary main_c_1 main_v12 (broadcastInDim S1048576 ![] bcast_S_S1048576 : (⟨S_, .i32⟩ : BufTy).Contents (Elt F) → (⟨S1048576, .i32⟩ : BufTy).Contents (Elt F)),
    binary main_v7 main_v12 main_v13 (cmpi .slt : (⟨S1048576, .i32⟩ : BufTy).Contents (Elt F) → (⟨S1048576, .i32⟩ : BufTy).Contents (Elt F) → (⟨S1048576, .i1⟩ : BufTy).Contents (Elt F)),
    nullary main_c_2 (constantI S_ 32 512#32),
    unary main_c_2 main_v14 (broadcastInDim S1048576 ![] bcast_S_S1048576 : (⟨S_, .i32⟩ : BufTy).Contents (Elt F) → (⟨S1048576, .i32⟩ : BufTy).Contents (Elt F)),
    binary main_v7 main_v14 main_v15 (addi : (⟨S1048576, .i32⟩ : BufTy).Contents (Elt F) → (⟨S1048576, .i32⟩ : BufTy).Contents (Elt F) → (⟨S1048576, .i32⟩ : BufTy).Contents (Elt F)),
    ternary main_v13 main_v15 main_v7 main_v16 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v16 main_v17 (broadcastInDim S1048576x1 ![0] bcast_S1048576_S1048576x1_0 : (⟨S1048576, .i32⟩ : BufTy).Contents (Elt F) → (⟨S1048576x1, .i32⟩ : BufTy).Contents (Elt F)),
    binary main_v11 main_v17 main_v18 ((fun x i => Host.gather gather_S512_S1048576x1_S1048576_n_0_n_n_0_1_1 x i) : (⟨S512, .f32⟩ : BufTy).Contents (Elt F) → (⟨S1048576x1, .i32⟩ : BufTy).Contents (Elt F) → (⟨S1048576, .f32⟩ : BufTy).Contents (Elt F)),
    binary main_v4 main_v18 main_v19 (Host.divf : (⟨S1048576, .f32⟩ : BufTy).Contents (Elt F) → (⟨S1048576, .f32⟩ : BufTy).Contents (Elt F) → (⟨S1048576, .f32⟩ : BufTy).Contents (Elt F)),
    nullary main_cst_3 (constant S_ .f32 0x00000000#32),
    binary main_v19 main_cst_3 main_v20 ((fun x v => Host.reduceAdd x v reducesTo_S1048576_S_d0 h_S_) : (⟨S1048576, .f32⟩ : BufTy).Contents (Elt F) → (⟨S_, .f32⟩ : BufTy).Contents (Elt F) → (⟨S_, .f32⟩ : BufTy).Contents (Elt F)) ]

set_option maxRecDepth 8192 in
/-- The list of the reference's run is this list, position by position. -/
theorem ops_eq : (ops : List (HloOp τ sig (Elt F))) = opsP :=
  List.cons_eq_cons.mpr ⟨TRefPlain.nullary_eq .., List.cons_eq_cons.mpr ⟨TRefPlain.binary_eq .., List.cons_eq_cons.mpr ⟨TRefPlain.nullary_eq .., List.cons_eq_cons.mpr ⟨TRefPlain.unary_eq .., List.cons_eq_cons.mpr ⟨TRefPlain.binary_eq .., List.cons_eq_cons.mpr ⟨TRefPlain.unary_eq .., List.cons_eq_cons.mpr ⟨TRefPlain.unary_eq .., List.cons_eq_cons.mpr ⟨TRefPlain.binary_eq .., List.cons_eq_cons.mpr ⟨TRefPlain.unary_eq .., List.cons_eq_cons.mpr ⟨TRefPlain.nullary_eq .., List.cons_eq_cons.mpr ⟨TRefPlain.binary_eq .., List.cons_eq_cons.mpr ⟨TRefPlain.unary_eq .., List.cons_eq_cons.mpr ⟨TRefPlain.unary_eq .., List.cons_eq_cons.mpr ⟨TRefPlain.unary_eq .., List.cons_eq_cons.mpr ⟨TRefPlain.binary_eq .., List.cons_eq_cons.mpr ⟨rfl, List.cons_eq_cons.mpr ⟨TRefPlain.nullary_eq .., List.cons_eq_cons.mpr ⟨TRefPlain.unary_eq .., List.cons_eq_cons.mpr ⟨TRefPlain.binary_eq .., List.cons_eq_cons.mpr ⟨TRefPlain.nullary_eq .., List.cons_eq_cons.mpr ⟨TRefPlain.unary_eq .., List.cons_eq_cons.mpr ⟨TRefPlain.binary_eq .., List.cons_eq_cons.mpr ⟨TRefPlain.ternary_eq .., List.cons_eq_cons.mpr ⟨rfl, List.cons_eq_cons.mpr ⟨TRefPlain.nullary_eq .., List.cons_eq_cons.mpr ⟨TRefPlain.nullary_eq .., List.cons_eq_cons.mpr ⟨TRefPlain.unary_eq .., List.cons_eq_cons.mpr ⟨TRefPlain.binary_eq .., List.cons_eq_cons.mpr ⟨TRefPlain.unary_eq .., List.cons_eq_cons.mpr ⟨TRefPlain.unary_eq .., List.cons_eq_cons.mpr ⟨TRefPlain.binary_eq .., List.cons_eq_cons.mpr ⟨TRefPlain.binary_eq .., List.cons_eq_cons.mpr ⟨TRefPlain.nullary_eq .., List.cons_eq_cons.mpr ⟨TRefPlain.binary_eq .., List.cons_eq_cons.mpr ⟨TRefPlain.binary_eq .., List.cons_eq_cons.mpr ⟨TRefPlain.nullary_eq .., List.cons_eq_cons.mpr ⟨TRefPlain.unary_eq .., List.cons_eq_cons.mpr ⟨TRefPlain.ternary_eq .., List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, rfl⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

set_option maxRecDepth 8192 in
theorem opsP_sub : (opsP : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub ..⟩

end Cert.ReferenceIdeal.RunP

end
-- ==== Proof.RefRunProof.lean ====
/-
  The reference program's run.

  Its @main is a straight line of 62 host operations (the two outlined functions' operations standing at their calls), so
  every weakly fair execution of it terminates, nothing faulting; the result buffer ends at the operations' composed term
  of the three argument arrays, and the arguments end as they began.
-/
import proofs.«415713_j71244917506325_3_alg».proof.Proof.RefOpsP

noncomputable section

namespace Cert.ReferenceIdeal.RunP

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- @main is the straight line of the plain operations. -/
theorem mainP_eq (c : Dev nD) : main (F := F) c = seq opsP := (main_eq c).trans (congrArg seq ops_eq)

set_option maxRecDepth 8192 in
set_option maxHeartbeats 24800000 in
/-- On every device, from any memory with zero counters: every weakly fair execution of @main terminates with the result
    at the operations' composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = res_main_v20 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v20).trans (by after_results_simp <;> rfl <;> (unfold res_main_v20; rfl)),
      (h c main_arg0).trans (by after_results_simp <;> rfl),
      (h c main_arg1).trans (by after_results_simp <;> rfl),
      (h c main_arg2).trans (by after_results_simp <;> rfl)⟩)
    (run_seq scopedRefs_eq scopedSems_eq defs main (fun _ => opsP) mainP_eq (fun _ => opsP_sub) m ρ)

end Cert.ReferenceIdeal.RunP

end
-- ==== Proof.RFinal.lean ====
/-
  The reference's result at the ideal values: the sum over the samples of loss / size of the sample's own group.
-/
import proofs.«415713_j71244917506325_3_alg».proof.Proof.RLoss
import proofs.«415713_j71244917506325_3_alg».proof.Proof.RCounts
import proofs.«415713_j71244917506325_3_alg».proof.Proof.RefRunProof
import Idealize.ShloMosaic.Lib.ValueIdxRank1

noncomputable section

open scoped BigOperators

namespace Cert.ReferenceIdeal.RFinal

open Cert.ReferenceIdeal Cert.ReferenceIdeal.ReadP Cert.Spec Idealize.ShloMosaic Idealize.ShloMosaic.ValueIdx Idealize.SL.Sem

/-- One sample's quotient: its loss over the size of its own group. The divisor is a real number at least 1, so the
    extended-real division is the real one. -/
private theorem quot_apply (X : FVec Ideal ⟨2, ![1048576, 64]⟩ .f32) (Tg Sg : IVec ⟨1, ![1048576]⟩ 32) (D : Data X Tg Sg) (j : Fin 1048576) :
    val_main_v19 (F := Ideal) X Tg Sg (ix1 j) = ((D.loss j / cnt D.tt D.sg (D.tt j) (D.sg j) : ℝ) : EReal) := by
  have hc : cnt D.tt D.sg (D.tt j) (D.sg j) ≠ 0 :=
    ne_of_gt (lt_of_lt_of_le one_pos (one_le_cnt_self D.tt D.sg j))
  rw [val_main_v19_apply, RLoss.loss_apply X Tg Sg D j, RCounts.counts_apply X Tg Sg D j, Ideal.hostDivf_def,
    Ideal.div_coe hc, ← EReal.coe_mul, mul_one_div]

/-- The summed quotients are the inputs' total. -/
theorem total_apply (X : FVec Ideal ⟨2, ![1048576, 64]⟩ .f32) (Tg Sg : IVec ⟨1, ![1048576]⟩ 32) (D : Data X Tg Sg) :
    val_main_v20 (F := Ideal) X Tg Sg = fun _ => ((D.total : ℝ) : EReal) := by
  -- the result has one index; the sum starts from 0 and runs over the samples, each term a real quotient
  funext i
  rw [val_main_v20_apply, val_main_cst_3_apply]
  show Ideal.ofBits .f32 0x00000000#32 + _ = _
  rw [Ideal.ofBits_zero_f32, zero_add, ← Equiv.sum_comp (idxEquiv1 (n := 1048576)).symm]
  show ∑ j : Fin 1048576, val_main_v19 (F := Ideal) X Tg Sg (ix1 j) = _
  rw [Finset.sum_congr rfl fun j _ => quot_apply X Tg Sg D j, ← coe_sum]
  rfl

/-- From a run that ends with the result at the operations' composed term: that term is the inputs' total. -/
private theorem run_of (m : (ℓ : Loc nD τ sig) → Buf (Elt Ideal) ℓ) (ρ : Dev nD → PrngReg)
    (D : ∀ c : Dev nD, Cert.Spec.Data (m ((c.tc : Thread nD τ).loc main_arg0)) (m ((c.tc : Thread nD τ).loc main_arg1)) (m ((c.tc : Thread nD τ).loc main_arg2)))
    (hrun : θ_run (defs (F := Ideal)) (onTc (τ := τ) (main (F := Ideal))) ⟨m, fun _ => 0, ρ⟩ (fun r => ∀ c : Dev nD,
      r.2.mem ((c.tc : Thread nD τ).loc main_v20) = Cert.ReferenceIdeal.Value.res_main_v20 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))) :
    θ_run (defs (F := Ideal)) (onTc (τ := τ) (main (F := Ideal))) ⟨m, fun _ => 0, ρ⟩ (fun r => ∀ c : Dev nD,
      r.2.mem ((c.tc : Thread nD τ).loc main_v20) = (fun _ => (((D c).total : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).1.trans ((ReadP.val_main_v20_eq m c).trans (total_apply _ _ _ (D c))), (h c).2⟩) hrun

/-- The idealized reference's run: it ends with the result at the inputs' total and the arguments unchanged. -/
theorem run (m : (ℓ : Loc nD τ sig) → Buf (Elt Ideal) ℓ) (ρ : Dev nD → PrngReg)
    (D : ∀ c : Dev nD, Cert.Spec.Data (m ((c.tc : Thread nD τ).loc main_arg0)) (m ((c.tc : Thread nD τ).loc main_arg1)) (m ((c.tc : Thread nD τ).loc main_arg2))) :
    θ_run (defs (F := Ideal)) (onTc (τ := τ) (main (F := Ideal))) ⟨m, fun _ => 0, ρ⟩ (fun r => ∀ c : Dev nD,
      r.2.mem ((c.tc : Thread nD τ).loc main_v20) = (fun _ => (((D c).total : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  exact run_of m ρ D (Cert.ReferenceIdeal.RunP.run m ρ)

end Cert.ReferenceIdeal.RFinal

end
-- ==== Proof.PreData.lean ====
/-
  What the precondition grants: every logit is a real number, every class label is one of 0 … 63 and every subgroup label
  one of 0 … 7.
-/
import proofs.«415713_j71244917506325_3_alg».proof.Pre_finite_inputs
import proofs.«415713_j71244917506325_3_alg».proof.Proof.Gen.Pre_finite_inputs
import proofs.«415713_j71244917506325_3_alg».proof.Proof.Spec
import Idealize.ShloMosaic.Lib.ReduceAll
import Idealize.ShloMosaic.Lib.StableHlo.Predicate

noncomputable section

namespace Cert.PreData

open Cert.Spec Idealize.ShloMosaic Idealize.ShloMosaic.ValueIdx

/-- The scalar shape has one index. -/
private instance : Subsingleton (⟨0, ![]⟩ : Shape).Idx := ⟨fun _ _ => funext fun d => d.elim0⟩

/-- An extended real whose absolute value, max x (-x), lies strictly below +∞ is a real number: +∞ and -∞ both have
    absolute value +∞. -/
private theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A conjunction of two one-bit arrays is 1 at an index exactly when both are 1 there. -/
private theorem andi_at {s : Shape} (a b : IVec s 1) (i : s.Idx) : andi a b i = 1#1 ↔ a i = 1#1 ∧ b i = 1#1 :=
  IntOp.andi_eq_one

/-- A 32-bit word that, read signed, is at least 0 and below a small `n` is the word of a natural number below `n`. -/
private theorem word_of_range (w : BitVec 32) (n : ℕ) (hn : n < 2 ^ 31)
    (h0 : IntOp.cmpi .sge w 0#32 = 1#1) (h1 : IntOp.cmpi .slt w (BitVec.ofNat 32 n) = 1#1) :
    w.toNat < n ∧ w = BitVec.ofNat 32 w.toNat := by
  rw [IntOp.cmpi_sge] at h0
  rw [IntOp.cmpi_slt, StableHlo.Predicate.toInt_ofNat_small n hn] at h1
  have hz : (0#32 : BitVec 32).toInt = 0 := by decide
  rw [hz] at h0
  have hlt := w.isLt
  rw [BitVec.toInt_eq_toNat_cond] at h0 h1
  refine ⟨by split at h0 <;> omega, ?_⟩
  exact BitVec.eq_of_toNat_eq (by rw [BitVec.toNat_ofNat]; omega)

/-- Inputs on which the printed precondition is all ones are real data. -/
theorem data_of_pre (X : FVec Ideal ⟨2, ![1048576, 64]⟩ .f32) (Tg Sg : IVec ⟨1, ![1048576]⟩ 32)
    (h : Cert.Pre_finite_inputs.fn (F := Ideal) X Tg Sg = fun _ => 1#1) : Nonempty (Data X Tg Sg) := by
  have h0 := congrFun h ix0
  unfold Cert.Pre_finite_inputs.fn Cert.Pre_finite_inputs.fn_part1 at h0
  dsimp only at h0
  rw [andi_at, andi_at] at h0
  obtain ⟨⟨hX, hT⟩, hS⟩ := h0
  -- every logit: |x| < +∞, so x is a real
  have eX : ∀ i c, ∃ r : ℝ, X (ix2 i c) = (r : EReal) := by
    intro i c
    have e := Host.reduce_andi_all _ _ _ _ ix0 hX (ix2 i c)
    change Ideal.cmp .olt (max (X (ix2 i c)) (-X (ix2 i c))) (Ideal.ofBits .f32 0x7F800000#32) = 1#1 at e
    have ht : Ideal.ofBits .f32 0x7F800000#32 = ⊤ := by simp [Ideal.ofBits, Ideal.ieee]
    rw [ht] at e
    simp only [Ideal.cmp, StableHlo.Predicate.ofBool_eq_one_iff, decide_eq_true_eq] at e
    exact real_of_abs_lt_top _ e
  -- every class label: 0 ≤ t < 64 signed
  have eT : ∀ i, (Tg (ix1 i)).toNat < 64 ∧ Tg (ix1 i) = BitVec.ofNat 32 (Tg (ix1 i)).toNat := by
    intro i
    have e := Host.reduce_andi_all _ _ _ _ ix0 hT (ix1 i)
    rw [andi_at] at e
    exact word_of_range _ 64 (by norm_num) e.1 e.2
  -- every subgroup label: 0 ≤ s < 8 signed
  have eS : ∀ i, (Sg (ix1 i)).toNat < 8 ∧ Sg (ix1 i) = BitVec.ofNat 32 (Sg (ix1 i)).toNat := by
    intro i
    have e := Host.reduce_andi_all _ _ _ _ ix0 hS (ix1 i)
    rw [andi_at] at e
    exact word_of_range _ 8 (by norm_num) e.1 e.2
  exact ⟨{ xr := fun i c => Classical.choose (eX i c)
           tt := fun i => ⟨(Tg (ix1 i)).toNat, (eT i).1⟩
           sg := fun i => ⟨(Sg (ix1 i)).toNat, (eS i).1⟩
           hx := fun i c => Classical.choose_spec (eX i c)
           ht := fun i => (eT i).2
           hs := fun i => (eS i).2 }⟩

end Cert.PreData

end
-- ==== Proof.lean ====
/-
  The five claims of the certificate.

  Both idealized programs compute, from logits that are real numbers and labels in range (what the precondition grants),
  the same real number: the sum over the samples of the sample's cross-entropy divided by the size of its (class, subgroup)
  group. The reference does so sample by sample; the kernel accumulates per group, over two shards of 64 tiles, the group's
  size and summed cross-entropy, and divides once per non-empty group. The frames of the two kernel programs are the
  generated ones, the reference's is its run with the result dropped, and the five rewrites of the idealization are the
  removal of a bf16 round trip each.
-/
import proofs.«415713_j71244917506325_3_alg».proof.Defs
import proofs.«415713_j71244917506325_3_alg».proof.Proof.Gen.Kernel
import proofs.«415713_j71244917506325_3_alg».proof.Proof.Gen.Kernel.Skeleton
import proofs.«415713_j71244917506325_3_alg».proof.Proof.Gen.Kernel.Launch
import proofs.«415713_j71244917506325_3_alg».proof.Proof.Gen.Kernel.Points
import proofs.«415713_j71244917506325_3_alg».proof.Proof.Gen.Kernel.Frame
import proofs.«415713_j71244917506325_3_alg».proof.Proof.Gen.KernelIdeal
import proofs.«415713_j71244917506325_3_alg».proof.Proof.Gen.KernelIdeal.Skeleton
import proofs.«415713_j71244917506325_3_alg».proof.Proof.Gen.KernelIdeal.Launch
import proofs.«415713_j71244917506325_3_alg».proof.Proof.Gen.KernelIdeal.Points
import proofs.«415713_j71244917506325_3_alg».proof.Proof.Gen.KernelIdeal.Frame
import proofs.«415713_j71244917506325_3_alg».proof.Proof.Gen.ReferenceIdeal
import proofs.«415713_j71244917506325_3_alg».proof.Proof.Gen.Pre_finite_inputs
import proofs.«415713_j71244917506325_3_alg».proof.Proof.KArray
import proofs.«415713_j71244917506325_3_alg».proof.Proof.RFinal
import proofs.«415713_j71244917506325_3_alg».proof.Proof.PreData
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Each rewrite dropped a round trip through bf16, which is the identity at the ideal values. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16,
    IdealRules.truncf_extf.statement _ .f32 .bf16⟩

/-- The same data seen over arrays equal to the given ones. -/
def dataOver {X X' : FVec Ideal ⟨2, ![1048576, 64]⟩ .f32} {Tg Tg' Sg Sg' : IVec ⟨1, ![1048576]⟩ 32}
    (D : Cert.Spec.Data X Tg Sg) (hx : X' = X) (ht : Tg' = Tg) (hs : Sg' = Sg) : Cert.Spec.Data X' Tg' Sg' where
  xr := D.xr
  tt := D.tt
  sg := D.sg
  hx := by rw [hx]; exact D.hx
  ht := by rw [ht]; exact D.ht
  hs := by rw [hs]; exact D.hs

/-- Its total is the given data's. -/
theorem dataOver_total {X X' : FVec Ideal ⟨2, ![1048576, 64]⟩ .f32} {Tg Tg' Sg Sg' : IVec ⟨1, ![1048576]⟩ 32}
    (D : Cert.Spec.Data X Tg Sg) (hx : X' = X) (ht : Tg' = Tg) (hs : Sg' = Sg) :
    (dataOver D hx ht hs).total = D.total := rfl

/-- From agreeing memories both programs end at the inputs' total. -/
theorem algebraic : Cert.algebraic_KernelIdeal_ReferenceIdeal := by
  intro m ρ m' ρ' hpre hagree
  have D : ∀ c : Dev Cert.KernelIdeal.nD, Cert.Spec.Data
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) :=
    fun c => (Cert.PreData.data_of_pre _ _ _ (hpre c)).some
  refine ⟨fun c _ => (((D c).total : ℝ) : EReal), Cert.KernelIdeal.Arr.run m ρ D, ?_⟩
  refine (θ_run Cert.ReferenceIdeal.defs _ _).mono (fun _ h c => ⟨(h c).1.trans ?_, (h c).2⟩)
    (Cert.ReferenceIdeal.RFinal.run m' ρ' fun c => dataOver (D c) (hagree c).1 (hagree c).2.1 (hagree c).2.2)
  rw [dataOver_total]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
